-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S4x2048x1024 .f32) (main_arg1 : FVec F S3072x1024 .f32) (main_arg2 : FVec F S3072 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S4x2048x1024 : Shape := ⟨3, ![4, 2048, 1024]⟩
abbrev S3072x1024 : Shape := ⟨2, ![3072, 1024]⟩
abbrev S3072 : Shape := ⟨1, ![3072]⟩
abbrev S1024x3072 : Shape := ⟨2, ![1024, 3072]⟩
abbrev S1024x1024 : Shape := ⟨2, ![1024, 1024]⟩
abbrev S1024x2048 : Shape := ⟨2, ![1024, 2048]⟩
abbrev S1024 : Shape := ⟨1, ![1024]⟩
abbrev S1x1024 : Shape := ⟨2, ![1, 1024]⟩
abbrev S2048 : Shape := ⟨1, ![2048]⟩
abbrev S1x2048 : Shape := ⟨2, ![1, 2048]⟩
abbrev S1x1024x1024 : Shape := ⟨3, ![1, 1024, 1024]⟩
abbrev S1x512x1024 : Shape := ⟨3, ![1, 512, 1024]⟩
abbrev S1x2048x1024 : Shape := ⟨3, ![1, 2048, 1024]⟩
abbrev S512x1024 : Shape := ⟨2, ![512, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 18
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x3072, .f32⟩
  | .hbm, ⟨4, _⟩ => ⟨S1024x3072, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x2048, .bf16⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1024, .f32⟩
  | .hbm, ⟨13, _⟩ => ⟨S2048, .f32⟩
  | .hbm, ⟨14, _⟩ => ⟨S1x2048, .f32⟩
  | .hbm, ⟨15, _⟩ => ⟨S4x2048x1024, .bf16⟩
  | .hbm, ⟨16, _⟩ => ⟨S4x2048x1024, .bf16⟩
  | .hbm, ⟨17, _⟩ => ⟨S4x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x2048, .bf16⟩
  | .local _ .vmem, ⟨3, _⟩ => ⟨S1x2048, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1024x1024, .bf16⟩
  | .local _ .vmem, ⟨11, _⟩ => ⟨S1x1024, .f32⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x512x1024, .f32⟩
  | .local _ .vmem, ⟨17, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S3072x1024_S1024x3072_1_0 : S3072x1024.Transposes [1, 0] S1024x3072
  bitsLt_bf16_f32 : FTy.bits .bf16 < FTy.bits .f32
  slices_S1024x3072_S1024x1024_0_0 : S1024x3072.Slices ![0, 0] S1024x1024
  slices_S1024x3072_S1024x1024_0_1024 : S1024x3072.Slices ![0, 1024] S1024x1024
  slices_S1024x3072_S1024x1024_0_2048 : S1024x3072.Slices ![0, 2048] S1024x1024
  concatenates_S1024x1024_S1024x1024_S1024x2048_d1 : Shape.Concatenates [S1024x1024, S1024x1024] S1024x2048 1
  slices_S3072_S1024_0 : S3072.Slices ![0] S1024
  shapeCasts_S1024_S1x1024 : S1024.ShapeCasts S1x1024
  slices_S3072_S1024_1024 : S3072.Slices ![1024] S1024
  slices_S3072_S1024_2048 : S3072.Slices ![2048] S1024
  concatenates_S1024_S1024_S2048_d0 : Shape.Concatenates [S1024, S1024] S2048 0
  shapeCasts_S2048_S1x2048 : S2048.ShapeCasts S1x2048
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  slices_S1024x2048_o0_0_S1024x1024 : S1024x2048.Slices ![0, 0] S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  slices_S1024x2048_o0_1024_S1024x1024 : S1024x2048.Slices ![0, 1024] S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  shapeCasts_S512x1024_S1x512x1024 : S512x1024.ShapeCasts S1x512x1024
  dot_S1024x1024_S1024x2048_S1024x2048_1_0_0_1_n_n_wf : DotDims.WF S1024x1024 S1024x2048 S1024x2048 [1] [0] [0] [1] [] []
  dot_S512x1024_S1024x1024_S512x1024_1_0_0_1_n_n_wf : DotDims.WF S512x1024 S1024x1024 S512x1024 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x2048x1024.size a
  hwx0_0 : ∀ i : grid0.Coords, EltTy.bits .f32 = 32 ∨ (Rect.block (s := S4x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x2048x1024.size a
  hwx0_3 : ∀ i : grid0.Coords, EltTy.bits .bf16 = 32 ∨ (Rect.block (s := S4x2048x1024) S1x1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S4x2048x1024.size a
  hwx0_4 : ∀ i : grid0.Coords, EltTy.bits .bf16 = 32 ∨ (Rect.block (s := S4x2048x1024) S1x1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .f32 = 32 ∨ (Rect.block (s := S4x2048x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S4x2048x1024.size a
  hwx1_3 : ∀ i : grid1.Coords, EltTy.bits .bf16 = 32 ∨ (Rect.block (s := S4x2048x1024) S1x2048x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x1024.size a ≤ S4x2048x1024.size a
  hwx1_4 : ∀ i : grid1.Coords, EltTy.bits .bf16 = 32 ∨ (Rect.block (s := S4x2048x1024) S1x2048x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S4x2048x1024.size a
  hwx1_5 : ∀ i : grid1.Coords, EltTy.bits .f32 = 32 ∨ (Rect.block (s := S4x2048x1024) S1x512x1024.size (cc1_transform_5 i) (hinb1_5 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S1x1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12_0) S1x2048x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12_1) S1x2048x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S4x2048x3072 : Shape := ⟨3, ![4, 2048, 3072]⟩
abbrev S1x1x3072 : Shape := ⟨3, ![1, 1, 3072]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S4x2048x3072, .f32⟩
  | .hbm, ⟨4, _⟩ => ⟨S1x1x3072, .f32⟩
  | .hbm, ⟨5, _⟩ => ⟨S4x2048x3072, .f32⟩
  | .hbm, ⟨6, _⟩ => ⟨S4x2048x3072, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x2048, .f32⟩
  | .hbm, ⟨11, _⟩ => ⟨S_, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S4x2048x2048, .f32⟩
  | .hbm, ⟨24, _⟩ => ⟨S4x2048x2048, .f32⟩
  | .hbm, ⟨25, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S3072x1024_S4x2048x3072_2_1_01_0_n_n_wf : DotDims.WF S4x2048x1024 S3072x1024 S4x2048x3072 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
/-
  Single-head attention over the fused projection, as plain functions of the three argument arrays.

  With x : [4, 2048, 1024], W : [3072, 1024], b : [3072], the fused projection is
      proj bb n e = (∑ k, x[bb, n, k] · W[e, k]) + b[e]            (e < 3072),
  whose three column thirds are the queries (e = d), the keys (e = 1024 + d) and the values (e = 2048 + d).
  A row of scores is score bb n j = ∑ d, q[bb, n, d] · k[bb, j, d]; its maximum is taken from −∞; the
  exponentials ex bb n j = exp (score bb n j − rowMax bb n) sum to den bb n. The two programs differ only in how a
  row is normalised: one multiplies every exponential by the reciprocal 1 / den, the other divides every exponential by
  den. For finite inputs den is a real number not below 1 (the entry at the maximum contributes exp 0), and then
  e · (1 / den) = e / den; at infinite inputs den may vanish and the two forms part, which is why the law below asks
  for real entries.
-/
import Idealize.ShloMosaic.PureOps.Ideal
import Idealize.ShloMosaic.PureOps.Ideal.Laws
import Idealize.ShloMosaic.Lib.ValueIdx
import Mathlib.Data.Finset.Fold

noncomputable section

namespace Cert.Attn

open Idealize.ShloMosaic Idealize.ShloMosaic.ValueIdx
open scoped BigOperators

/-- The three argument arrays' index types, over literal extents. -/
abbrev XIdx := (⟨3, ![4, 2048, 1024]⟩ : Shape).Idx
abbrev WIdx := (⟨2, ![3072, 1024]⟩ : Shape).Idx
abbrev BIdx := (⟨1, ![3072]⟩ : Shape).Idx

/-- Column `d` of the query third, of the key third and of the value third of the fused projection. -/
def qCol (d : Fin 1024) : Fin 3072 := ⟨d.val, by omega⟩
def kCol (d : Fin 1024) : Fin 3072 := ⟨1024 + d.val, by omega⟩
def vCol (d : Fin 1024) : Fin 3072 := ⟨2048 + d.val, by omega⟩

section
variable (x : XIdx → EReal) (W : WIdx → EReal) (b : BIdx → EReal)

/-- The fused projection x · Wᵀ + b at batch `bb`, row `n`, column `e`. -/
def proj (bb : Fin 4) (n : Fin 2048) (e : Fin 3072) : EReal :=
  (∑ k : Fin 1024, x (ix3 bb n k) * W (ix2 e k)) + b (ix1 e)

/-- The score of query row `n` against key row `j`. -/
def score (bb : Fin 4) (n j : Fin 2048) : EReal :=
  ∑ d : Fin 1024, proj x W b bb n (qCol d) * proj x W b bb j (kCol d)

/-- A row's largest score, folded from −∞. -/
def rowMax (bb : Fin 4) (n : Fin 2048) : EReal :=
  (Finset.univ : Finset (Fin 2048)).fold max ⊥ (fun j => score x W b bb n j)

/-- The shifted exponentials of a row, and their sum. -/
def ex (bb : Fin 4) (n j : Fin 2048) : EReal := Ideal.exp (score x W b bb n j - rowMax x W b bb n)
def den (bb : Fin 4) (n : Fin 2048) : EReal := ∑ j : Fin 2048, ex x W b bb n j

/-- The attention output with each exponential MULTIPLIED by the reciprocal of the row's sum. -/
def outMul (bb : Fin 4) (n : Fin 2048) (d : Fin 1024) : EReal :=
  ∑ j : Fin 2048, (ex x W b bb n j * Ideal.div 1 (den x W b bb n)) * proj x W b bb j (vCol d)

/-- The attention output with each exponential DIVIDED by the row's sum. -/
def outDiv (bb : Fin 4) (n : Fin 2048) (d : Fin 1024) : EReal :=
  ∑ j : Fin 2048, Ideal.div (ex x W b bb n j) (den x W b bb n) * proj x W b bb j (vCol d)

end

/-! ## Real-valued entries stay real through sums and products -/

/-- An extended real that is a real number. -/
def IsReal (y : EReal) : Prop := ∃ r : ℝ, y = (r : EReal)

theorem IsReal.add {y z : EReal} (hy : IsReal y) (hz : IsReal z) : IsReal (y + z) := by
  obtain ⟨r, rfl⟩ := hy; obtain ⟨s, rfl⟩ := hz; exact ⟨r + s, (EReal.coe_add r s).symm⟩

theorem IsReal.mul {y z : EReal} (hy : IsReal y) (hz : IsReal z) : IsReal (y * z) := by
  obtain ⟨r, rfl⟩ := hy; obtain ⟨s, rfl⟩ := hz; exact ⟨r * s, (EReal.coe_mul r s).symm⟩

theorem IsReal.sub {y z : EReal} (hy : IsReal y) (hz : IsReal z) : IsReal (y - z) := by
  obtain ⟨r, rfl⟩ := hy; obtain ⟨s, rfl⟩ := hz; exact ⟨r - s, (EReal.coe_sub r s).symm⟩

theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem IsReal.ne_top {y : EReal} (hy : IsReal y) : y ≠ ⊤ := by obtain ⟨r, rfl⟩ := hy; exact EReal.coe_ne_top r
theorem IsReal.ne_bot {y : EReal} (hy : IsReal y) : y ≠ ⊥ := by obtain ⟨r, rfl⟩ := hy; exact EReal.coe_ne_bot r

theorem isReal_of_ne {y : EReal} (h1 : y ≠ ⊥) (h2 : y ≠ ⊤) : IsReal y := by
  induction y using EReal.rec with
  | bot => exact absurd rfl h1
  | coe r => exact ⟨r, rfl⟩
  | top => exact absurd rfl h2

section
variable (x : XIdx → EReal) (W : WIdx → EReal) (b : BIdx → EReal)
variable (hx : ∀ i, IsReal (x i)) (hW : ∀ i, IsReal (W i)) (hb : ∀ i, IsReal (b i))
include hx hW hb

theorem proj_isReal (bb : Fin 4) (n : Fin 2048) (e : Fin 3072) : IsReal (proj x W b bb n e) :=
  (IsReal.sum _ _ fun k _ => (hx _).mul (hW _)).add (hb _)

theorem score_isReal (bb : Fin 4) (n j : Fin 2048) : IsReal (score x W b bb n j) :=
  IsReal.sum _ _ fun d _ => (proj_isReal x W b hx hW hb bb n _).mul (proj_isReal x W b hx hW hb bb j _)

/-- A row's maximum is a real number: it is below +∞ because every score is, and not below the first score. -/
theorem rowMax_isReal (bb : Fin 4) (n : Fin 2048) : IsReal (rowMax x W b bb n) := by
  refine isReal_of_ne ?_ ?_
  · intro h
    have h0 : score x W b bb n 0 ≤ rowMax x W b bb n :=
      (Finset.le_fold_max _).mpr (Or.inr ⟨0, Finset.mem_univ _, le_rfl⟩)
    rw [h, le_bot_iff] at h0
    exact (score_isReal x W b hx hW hb bb n 0).ne_bot h0
  · have : rowMax x W b bb n < ⊤ :=
      (Finset.fold_max_lt _).mpr ⟨bot_lt_top, fun j _ => lt_top_iff_ne_top.mpr (score_isReal x W b hx hW hb bb n j).ne_top⟩
    exact this.ne

/-- Every shifted exponential is a positive real, so it is in particular nonnegative. -/
theorem ex_pos (bb : Fin 4) (n j : Fin 2048) : 0 < ex x W b bb n j := by
  obtain ⟨r, hr⟩ := (score_isReal x W b hx hW hb bb n j).sub (rowMax_isReal x W b hx hW hb bb n)
  unfold ex; rw [hr]
  show (0 : EReal) < ((Real.exp r : ℝ) : EReal)
  exact_mod_cast Real.exp_pos r

/-- The row sum is positive, hence not zero. -/
theorem den_ne_zero (bb : Fin 4) (n : Fin 2048) : den x W b bb n ≠ 0 := by
  have h0 : ex x W b bb n 0 ≤ den x W b bb n :=
    Finset.single_le_sum (f := fun j => ex x W b bb n j) (fun j _ => (ex_pos x W b hx hW hb bb n j).le) (Finset.mem_univ 0)
  exact ((ex_pos x W b hx hW hb bb n 0).trans_le h0).ne'

/-- THE LAW: for real-valued inputs, multiplying by the reciprocal of the row sum is dividing by it. -/
theorem outMul_eq_outDiv (bb : Fin 4) (n : Fin 2048) (d : Fin 1024) :
    outMul x W b bb n d = outDiv x W b bb n d := by
  unfold outMul outDiv
  refine Finset.sum_congr rfl fun j _ => ?_
  have hd := den_ne_zero x W b hx hW hb bb n
  unfold Ideal.div
  rw [if_neg hd, if_neg hd, one_mul]

end

end Cert.Attn

end
-- ==== Proof.Finite.lean ====
/-
  Finiteness of the three argument arrays, read off the precondition.

  The precondition evaluates, for each argument array a, the conjunction over all entries of |a| < +∞, and conjoins the
  three results; the claim assumes the result is the word 1. A conjunction that is 1 had 1 at both sides, and a
  conjunction over all entries that is 1 had 1 at every entry, so every entry y of every array satisfies
  max y (−y) < +∞ as an extended real. Neither −∞ nor +∞ does (max is +∞ at both), hence y is a real number.
-/
import proofs.«410920_j11501922419237_3_alg».proof.Pre_finite_inputs
import proofs.«410920_j11501922419237_3_alg».proof.Proof.Gen.Pre_finite_inputs
import proofs.«410920_j11501922419237_3_alg».proof.Proof.Spec
import Idealize.ShloMosaic.Lib.ReduceAll
import Idealize.ShloMosaic.Lib.ValueIdx
import Idealize.ShloMosaic.PureOps.Ideal
import Idealize.ShloMosaic.PureOps.Ideal.Laws

noncomputable section

namespace Cert.Attn.Finite

open Idealize.ShloMosaic Idealize.ShloMosaic.ValueIdx

/-- The f32 pattern of all-ones exponent, zero fraction and clear sign denotes +∞. -/
theorem ofBits_inf : Ideal.ofBits .f32 0x7F800000#32 = (⊤ : EReal) := by
  simp [Ideal.ofBits, Ideal.ieee]

/-- An extended real whose absolute value max y (−y) is below +∞ is a real number: at −∞ and at +∞ the maximum is +∞. -/
theorem isReal_of_abs_lt_top (y : EReal) (h : max y (-y) < ⊤) : IsReal y := by
  induction y using EReal.rec with
  | bot => simp at h
  | coe r => exact ⟨r, rfl⟩
  | top => simp at h

/-- One entry: the comparison |y| < +∞ coming out 1 says y is a real number. -/
theorem isReal_of_cmp (y : Ideal .f32)
    (h : FloatOps.cmpf .olt (FloatOps.hostAbsf y) (FloatOps.ofBits .f32 0x7F800000#32 : Ideal .f32) = 1#1) : IsReal y := by
  refine isReal_of_abs_lt_top y ?_
  have h' : Ideal.cmp .olt (max y (-y)) (Ideal.ofBits .f32 0x7F800000#32) = 1#1 := h
  rw [ofBits_inf] at h'
  by_cases hlt : max y (-y) < ⊤
  · exact hlt
  · have h'' : BitVec.ofBool (decide (max y (-y) < ⊤)) = 1#1 := h'
    rw [decide_eq_false hlt] at h''
    exact absurd h'' (by decide)

/-- The rank-0 shape has one index. -/
instance : Subsingleton Cert.Pre_finite_inputs.S_.Idx := ⟨fun a b => funext fun d => d.elim0⟩

/-- The precondition holding says every entry of the three argument arrays is a real number. -/
theorem real_of_pre (x : FVec Ideal Cert.Pre_finite_inputs.S4x2048x1024 .f32) (W : FVec Ideal Cert.Pre_finite_inputs.S3072x1024 .f32)
    (b : FVec Ideal Cert.Pre_finite_inputs.S3072 .f32)
    (h : Cert.Pre_finite_inputs.fn (F := Ideal) x W b = fun _ => 1#1) :
    (∀ i, Cert.Attn.IsReal (x i)) ∧ (∀ i, Cert.Attn.IsReal (W i)) ∧ (∀ i, Cert.Attn.IsReal (b i)) := by
  have h0 := congrFun h ix0
  dsimp only [Cert.Pre_finite_inputs.fn] at h0
  obtain ⟨h12, h3⟩ := IntOp.andi_eq_one.1 h0
  obtain ⟨h1, h2⟩ := IntOp.andi_eq_one.1 h12
  exact ⟨fun i => isReal_of_cmp _ (Host.reduce_andi_all _ _ _ _ _ h1 i),
    fun i => isReal_of_cmp _ (Host.reduce_andi_all _ _ _ _ _ h2 i),
    fun i => isReal_of_cmp _ (Host.reduce_andi_all _ _ _ _ _ h3 i)⟩

end Cert.Attn.Finite

end
-- ==== Proof.RefValue.lean ====
/-
  The reference program's result, index by index, is the divided form of single-head attention.

  The reference computes the fused projection x · Wᵀ + b, cuts it into its query, key and value thirds, forms the
  scores q · kᵀ, normalises every row of scores by a softmax written as exp (s − max) / Σ exp (s − max), and
  multiplies the weights into the values. Each stage is read at explicit coordinates and identified with the
  corresponding function of the specification: the projection, the scores, the row maximum folded from −∞, the shifted
  exponentials, their row sum, the quotient, and the final contraction over the key rows.
-/
import proofs.«410920_j11501922419237_3_alg».proof.Proof.Gen.ReferenceIdeal.Read
import proofs.«410920_j11501922419237_3_alg».proof.Proof.Spec
import Idealize.ShloMosaic.PureOps.Reduce
import Idealize.ShloMosaic.PureOps.Ideal.Laws
import Idealize.ShloMosaic.Lib.ValueIdx

noncomputable section

namespace Cert.Attn.Ref

open Idealize.ShloMosaic Idealize.ShloMosaic.ValueIdx Cert.ReferenceIdeal Cert.ReferenceIdeal.Read
open scoped BigOperators

/-! ## The index functions of the reference's operations, at coordinates -/

theorem lidx_v0 (bb : Fin 4) (n : Fin 2048) (e : Fin 3072) (k : Fin 1024) :
    lidx_main_v0 (ix3 bb n e) k = ix3 bb n k := by
  funext a; match a with | ⟨0, _⟩ => rfl | ⟨1, _⟩ => rfl | ⟨2, _⟩ => rfl

theorem ridx_v0 (bb : Fin 4) (n : Fin 2048) (e : Fin 3072) (k : Fin 1024) :
    ridx_main_v0 (ix3 bb n e) k = ix2 e k := by
  funext a; match a with | ⟨0, _⟩ => rfl | ⟨1, _⟩ => rfl

theorem idx_v1_v2 (bb : Fin 4) (n : Fin 2048) (e : Fin 3072) :
    idx_main_v1 (idx_main_v2 (ix3 bb n e)) = ix1 e := by
  funext a; match a with | ⟨0, _⟩ => rfl

theorem idx_v4 (bb : Fin 4) (n : Fin 2048) (d : Fin 1024) : idx_main_v4 (ix3 bb n d) = ix3 bb n (qCol d) := by
  funext a; match a with | ⟨0, _⟩ => rfl | ⟨1, _⟩ => rfl | ⟨2, _⟩ => rfl

theorem idx_v5 (bb : Fin 4) (n : Fin 2048) (d : Fin 1024) : idx_main_v5 (ix3 bb n d) = ix3 bb n (kCol d) := by
  funext a; match a with | ⟨0, _⟩ => rfl | ⟨1, _⟩ => rfl | ⟨2, _⟩ => rfl

theorem idx_v6 (bb : Fin 4) (n : Fin 2048) (d : Fin 1024) : idx_main_v6 (ix3 bb n d) = ix3 bb n (vCol d) := by
  funext a; match a with | ⟨0, _⟩ => rfl | ⟨1, _⟩ => rfl | ⟨2, _⟩ => rfl

theorem lidx_v7 (bb : Fin 4) (n j : Fin 2048) (k : Fin 1024) : lidx_main_v7 (ix3 bb n j) k = ix3 bb n k := by
  funext a; match a with | ⟨0, _⟩ => rfl | ⟨1, _⟩ => rfl | ⟨2, _⟩ => rfl

theorem ridx_v7 (bb : Fin 4) (n j : Fin 2048) (k : Fin 1024) : ridx_main_v7 (ix3 bb n j) k = ix3 bb j k := by
  funext a; match a with | ⟨0, _⟩ => rfl | ⟨1, _⟩ => rfl | ⟨2, _⟩ => rfl

theorem idx_v11_v12 (bb : Fin 4) (n j : Fin 2048) : idx_main_v11 (idx_main_v12 (ix3 bb n j)) = ix2 bb n := by
  funext a; match a with | ⟨0, _⟩ => rfl | ⟨1, _⟩ => rfl

theorem idx_v16_v17 (bb : Fin 4) (n j : Fin 2048) : idx_main_v16 (idx_main_v17 (ix3 bb n j)) = ix2 bb n := by
  funext a; match a with | ⟨0, _⟩ => rfl | ⟨1, _⟩ => rfl

theorem idx_v15 (bb : Fin 4) (n k : Fin 2048) : idx_main_v15 (ix2 bb n) k = ix3 bb n k := by
  funext a; match a with | ⟨0, _⟩ => rfl | ⟨1, _⟩ => rfl | ⟨2, _⟩ => rfl

theorem lidx_v19 (bb : Fin 4) (n : Fin 2048) (d : Fin 1024) (k : Fin 2048) : lidx_main_v19 (ix3 bb n d) k = ix3 bb n k := by
  funext a; match a with | ⟨0, _⟩ => rfl | ⟨1, _⟩ => rfl | ⟨2, _⟩ => rfl

theorem ridx_v19 (bb : Fin 4) (n : Fin 2048) (d : Fin 1024) (k : Fin 2048) : ridx_main_v19 (ix3 bb n d) k = ix3 bb k d := by
  funext a; match a with | ⟨0, _⟩ => rfl | ⟨1, _⟩ => rfl | ⟨2, _⟩ => rfl

/-! ## The two constants: the word of −∞, and a maximum with −∞ -/

/-- The word 0xFF800000 is −∞. -/
theorem ofBits_negInf : Ideal.ofBits .f32 0xFF800000#32 = (⊥ : EReal) := by
  simp [Ideal.ofBits, Ideal.ieee]

/-! ## A maximum over the last axis of a [4, 2048, 2048] array, folded from −∞ -/

/-- The reduced index (bb, n) with the coordinate k put back on the last axis is (bb, n, k). -/
theorem lift_last (h : S4x2048x2048.Reduces [2] S4x2048) (bb : Fin 4) (n : Fin 2048) (k : Fin (S4x2048x2048.size 2)) :
    h.lift (ix2 bb n) k = ix3 bb n (⟨k.val, k.isLt⟩ : Fin 2048) := by
  funext c; apply Fin.ext
  fin_cases c <;> rfl

/-- The host's reduce with a maximum body over the last axis, from −∞, is at (bb, n) the fold of the maximum over
    the row. -/
theorem reduce_max_last (y : S4x2048x2048.Idx → EReal) (h' : S4x2048x2048.ReducesTo [2] S4x2048) (hu : 0 < S_.numel)
    (bb : Fin 4) (n : Fin 2048) :
    Host.reduce (FloatOps.maximumf (F := Ideal) (φ := .f32)) y (val_main_cst (F := Ideal)) h' hu (ix2 bb n)
      = (Finset.univ : Finset (Fin 2048)).fold max ⊥ (fun j => y (ix3 bb n j)) := by
  have h : S4x2048x2048.Reduces [2] S4x2048 := by decide
  refine (Host.reduce_eq_fold_single (FloatOps.maximumf (F := Ideal) (φ := .f32)) y _ h' h hu (ix2 bb n)).trans ?_
  rw [val_main_cst_apply, Ideal.ofBits_def, ofBits_negInf]
  have hf : (y ∘ h.lift (ix2 bb n)) = fun k : Fin 2048 => y (ix3 bb n k) :=
    funext fun k => congrArg y (lift_last h bb n k)
  exact congrArg (fun f => Finset.fold max (⊥ : EReal) f (Finset.univ : Finset (Fin 2048))) hf

section
variable (x : XIdx → EReal) (W : WIdx → EReal) (b : BIdx → EReal)

/-- The fused projection: the contraction over the 1024 input features plus the bias. -/
theorem v3_at (bb : Fin 4) (n : Fin 2048) (e : Fin 3072) :
    val_main_v3 (F := Ideal) x W b (ix3 bb n e) = proj x W b bb n e := by
  rw [val_main_v3_apply, val_main_v0_apply, val_main_v2_apply, val_main_v1_apply, idx_v1_v2]
  unfold proj
  refine congrArg₂ (· + ·) (Finset.sum_congr rfl fun k _ => ?_) rfl
  rw [lidx_v0, ridx_v0]

/-- The three slices are the projection's query, key and value thirds. -/
theorem v4_at (bb : Fin 4) (n : Fin 2048) (d : Fin 1024) :
    val_main_v4 (F := Ideal) x W b (ix3 bb n d) = proj x W b bb n (qCol d) := by
  rw [val_main_v4_apply, idx_v4, v3_at]

theorem v5_at (bb : Fin 4) (n : Fin 2048) (d : Fin 1024) :
    val_main_v5 (F := Ideal) x W b (ix3 bb n d) = proj x W b bb n (kCol d) := by
  rw [val_main_v5_apply, idx_v5, v3_at]

theorem v6_at (bb : Fin 4) (n : Fin 2048) (d : Fin 1024) :
    val_main_v6 (F := Ideal) x W b (ix3 bb n d) = proj x W b bb n (vCol d) := by
  rw [val_main_v6_apply, idx_v6, v3_at]

/-- The scores: query row n against key row j. -/
theorem v7_at (bb : Fin 4) (n j : Fin 2048) :
    val_main_v7 (F := Ideal) x W b (ix3 bb n j) = score x W b bb n j := by
  rw [val_main_v7_apply]
  unfold score
  refine Finset.sum_congr rfl fun k _ => ?_
  rw [lidx_v7, ridx_v7, v4_at, v5_at]

/-- The row maximum: the reduce from −∞, then one more maximum with −∞. -/
theorem v10_at (bb : Fin 4) (n : Fin 2048) :
    val_main_v10 (F := Ideal) x W b (ix2 bb n) = rowMax x W b bb n := by
  rw [val_main_v10_apply, val_main_v9_apply, val_main_cst_0_apply, Ideal.ofBits_def, ofBits_negInf, Ideal.maximumf_def,
    max_eq_right bot_le]
  unfold val_main_v8
  rw [reduce_max_last]
  unfold rowMax
  exact congrArg (fun f => Finset.fold max (⊥ : EReal) f (Finset.univ : Finset (Fin 2048))) (funext fun j => v7_at x W b bb n j)

/-- The shifted exponentials. -/
theorem v14_at (bb : Fin 4) (n j : Fin 2048) :
    val_main_v14 (F := Ideal) x W b (ix3 bb n j) = ex x W b bb n j := by
  rw [val_main_v14_apply, val_main_v13_apply, val_main_v12_apply, val_main_v11_apply, idx_v11_v12, v7_at, v10_at,
    Ideal.hostUnary_exp_def, Ideal.subf_def]
  rfl

/-- The row sum of the exponentials, from the zero word. -/
theorem v15_at (bb : Fin 4) (n : Fin 2048) :
    val_main_v15 (F := Ideal) x W b (ix2 bb n) = den x W b bb n := by
  rw [val_main_v15_apply, val_main_cst_1_apply, Ideal.ofBits_def, Ideal.ofBits_zero_f32, zero_add]
  unfold den
  refine Finset.sum_congr rfl fun k _ => ?_
  rw [idx_v15, v14_at]

/-- The normalised weights: each exponential divided by its row's sum. -/
theorem v18_at (bb : Fin 4) (n j : Fin 2048) :
    val_main_v18 (F := Ideal) x W b (ix3 bb n j) = Ideal.div (ex x W b bb n j) (den x W b bb n) := by
  rw [val_main_v18_apply, val_main_v17_apply, val_main_v16_apply, idx_v16_v17, v14_at, v15_at, Ideal.hostDivf_def]

/-- The output: the weights contracted with the values over the key rows. -/
theorem v19_at (bb : Fin 4) (n : Fin 2048) (d : Fin 1024) :
    val_main_v19 (F := Ideal) x W b (ix3 bb n d) = outDiv x W b bb n d := by
  rw [val_main_v19_apply]
  unfold outDiv
  refine Finset.sum_congr rfl fun k _ => ?_
  rw [lidx_v19, ridx_v19, v18_at, v6_at]

end

/-- The reference's result array, index by index, is the divided form of the specification. -/
theorem result (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v19 (F := Ideal) m c
      = fun i => Cert.Attn.outDiv (m ((c.tc : Thread _ _).loc Cert.ReferenceIdeal.main_arg0)) (m ((c.tc : Thread _ _).loc Cert.ReferenceIdeal.main_arg1)) (m ((c.tc : Thread _ _).loc Cert.ReferenceIdeal.main_arg2)) (i 0) (i 1) (i 2) := by
  rw [val_main_v19_eq]
  funext i
  obtain ⟨bb, n, d, rfl⟩ : ∃ bb n d, i = ix3 bb n d := ⟨i 0, i 1, i 2, eq_ix3 i⟩
  exact v19_at _ _ _ bb n d

end Cert.Attn.Ref

end
-- ==== Proof.KeysValues.lean ====
/-
  The key/value projection (region 0 of the kernel program) as plain functions of the three argument arrays.

  Before the region the host transposes the weight matrix W : [3072, 1024], cuts the transposed matrix's columns
  1024 … 2047 and 2048 … 3071 and lays them side by side into one fused weight wkv : [1024, 2048], so that
  wkv[k, e] = W[1024 + e, k]; the bias entries 1024 … 3071 likewise become one row bkv[0, e] = b[1024 + e].
  The region's grid has 4 × 2 points; point (bb, i) reads rows 1024 i … 1024 i + 1023 of batch bb of the activations
  x : [4, 2048, 1024], multiplies that block by the whole fused weight, adds the bias row, and stores the left
  half of the product's columns as the keys' block (bb, i) and the right half as the values' block (bb, i). Narrowing
  to bf16 is the identity on the extended reals, so entry (r, e) of the product is
      (∑ k, x[bb, 1024 i + r, k] · W[1024 + e, k]) + b[1024 + e],
  the fused projection's column 1024 + e of row (bb, 1024 i + r). The eight blocks tile each output array (row n of
  batch bb lies in the block of point (bb, n / 1024)), so after the region the keys array holds the projection's
  columns 1024 + d and the values array its columns 2048 + d.
-/
import proofs.«410920_j11501922419237_3_alg».proof.Proof.Gen.KernelIdeal.Frame
import proofs.«410920_j11501922419237_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.Attn.KV

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat)
open scoped BigOperators

variable (m : (ℓ : Loc nD τ sig) → Buf (Elt Ideal) ℓ) (ρ : Dev nD → PrngReg) (c : Dev nD)

/-! ## The host side: the fused key|value weight and bias as the host operations build them -/

/-- The weight matrix transposed and narrowed (narrowing is the identity on the extended reals). -/
def wT (Wm : S3072x1024.Idx → EReal) : S1024x3072.Idx → EReal :=
  truncf (F := Ideal) .bf16 (transpose S1024x3072 [1, 0] Wm transposes_S3072x1024_S1024x3072_1_0) bitsLt_bf16_f32

theorem wT_apply (Wm : S3072x1024.Idx → EReal) (k : Fin 1024) (e : Fin 3072) : wT Wm (ix2 k e) = Wm (ix2 e k) := by
  unfold wT
  rw [truncf_apply]
  exact transpose_ix2_apply Wm transposes_S3072x1024_S1024x3072_1_0 k e

/-- The fused key|value weight the host builds: columns 1024 … 3071 of the transposed weight matrix. -/
def wkvOf (Wm : S3072x1024.Idx → EReal) : S1024x2048.Idx → EReal :=
  concatenate S1024x2048 1
    [⟨S1024x1024, extractStridedSlice S1024x1024 ![0, 1024] (wT Wm) slices_S1024x3072_S1024x1024_0_1024⟩,
     ⟨S1024x1024, extractStridedSlice S1024x1024 ![0, 2048] (wT Wm) slices_S1024x3072_S1024x1024_0_2048⟩]
    concatenates_S1024x1024_S1024x1024_S1024x2048_d1

/-- Entry (k, e) of the fused key|value weight is entry (1024 + e, k) of the weight matrix. -/
theorem wkvOf_apply (Wm : S3072x1024.Idx → EReal) (k : Fin 1024) (e : Fin 2048) (e' : Fin 3072) (he : e'.val = 1024 + e.val) :
    wkvOf Wm (ix2 k e) = Wm (ix2 e' k) := by
  unfold wkvOf
  by_cases h : e.val < 1024
  · rw [concatenate_pair_apply_left (1 : Fin S1024x2048.rank) _ _ concatenates_S1024x1024_S1024x1024_S1024x2048_d1 (ix2 k e) rfl
      (ix2 k (⟨e.val, h⟩ : Fin 1024)) (fun b => by match b with | ⟨0, _⟩ => rfl | ⟨1, _⟩ => rfl)]
    rw [slice2_axis1_apply 1024 (wT Wm) slices_S1024x3072_S1024x1024_0_1024 k ⟨e.val, h⟩ e' he]
    exact wT_apply Wm k e'
  · have h2 : e.val - 1024 < 1024 := by have := e.isLt; omega
    rw [concatenate_pair_apply_right (1 : Fin S1024x2048.rank) _ _ concatenates_S1024x1024_S1024x1024_S1024x2048_d1 (ix2 k e) rfl rfl
      (ix2 k (⟨e.val - 1024, h2⟩ : Fin 1024))
      (fun b hb => by match b with | ⟨0, _⟩ => rfl | ⟨1, _⟩ => exact absurd rfl hb)
      (by show (e.val - 1024) + 1024 = e.val; omega)]
    rw [slice2_axis1_apply 2048 (wT Wm) slices_S1024x3072_S1024x1024_0_2048 k ⟨e.val - 1024, h2⟩ e' (by show e'.val = 2048 + (e.val - 1024); omega)]
    exact wT_apply Wm k e'

/-- Region 0 finds the fused weight in its second window's array. -/
theorem V1_v5 : (V1 m ρ c main_v5 : S1024x2048.Idx → EReal) = wkvOf (m ((c : Thread nD τ).loc main_arg1)) := by
  dsimp only [V1, W1, hostOps0]
  after_results
  rfl

/-- The fused key|value bias the host builds: entries 1024 … 3071 of the bias, as one row. -/
def bkvOf (B : S3072.Idx → EReal) : S1x2048.Idx → EReal :=
  shapeCast S1x2048
    (concatenate S2048 0
      [⟨S1024, extractStridedSlice S1024 ![1024] B slices_S3072_S1024_1024⟩,
       ⟨S1024, extractStridedSlice S1024 ![2048] B slices_S3072_S1024_2048⟩]
      concatenates_S1024_S1024_S2048_d0)
    shapeCasts_S2048_S1x2048

/-- Entry (0, e) of the fused bias row is entry 1024 + e of the bias. -/
theorem bkvOf_apply (B : S3072.Idx → EReal) (u : Fin 1) (e : Fin 2048) (e' : Fin 3072) (he : e'.val = 1024 + e.val) :
    bkvOf B (ix2 u e) = B (ix1 e') := by
  unfold bkvOf
  rw [shapeCast_a_1a_apply _ shapeCasts_S2048_S1x2048 u e]
  by_cases h : e.val < 1024
  · rw [concatenate_pair_apply_left (0 : Fin S2048.rank) _ _ concatenates_S1024_S1024_S2048_d0 (ix1 e) rfl
      (ix1 (⟨e.val, h⟩ : Fin 1024)) (fun b => by match b with | ⟨0, _⟩ => rfl)]
    exact extractStridedSlice_apply _ B slices_S3072_S1024_1024 _ (ix1 e') (fun a => by match a with | ⟨0, _⟩ => exact he)
  · have h2 : e.val - 1024 < 1024 := by have := e.isLt; omega
    rw [concatenate_pair_apply_right (0 : Fin S2048.rank) _ _ concatenates_S1024_S1024_S2048_d0 (ix1 e) rfl rfl
      (ix1 (⟨e.val - 1024, h2⟩ : Fin 1024))
      (fun b hb => by match b with | ⟨0, _⟩ => exact absurd rfl hb)
      (by show (e.val - 1024) + 1024 = e.val; omega)]
    exact extractStridedSlice_apply _ B slices_S3072_S1024_2048 _ (ix1 e') (fun a => by match a with | ⟨0, _⟩ => show e'.val = 2048 + (e.val - 1024); omega)

/-- Region 0 finds the fused bias row in its third window's array. -/
theorem V1_v11 : (V1 m ρ c main_v11 : S1x2048.Idx → EReal) = bkvOf (m ((c : Thread nD τ).loc main_arg2)) := by
  dsimp only [V1, W1, hostOps0]
  after_results
  rfl

/-- No host operation writes the activations. -/
theorem V1_arg0 : (V1 m ρ c main_arg0 : S4x2048x1024.Idx → EReal) = m ((c : Thread nD τ).loc main_arg0) := by
  dsimp only [V1, W1, hostOps0]
  after_results

/-! ## The body's payload at an index -/

theorem lhs_kv_0 (i : S1024x2048.Idx) (q : dot_S1024x1024_S1024x2048_S1024x2048_1_0_0_1_n_n.contr.Idx) :
    (dot_S1024x1024_S1024x2048_S1024x2048_1_0_0_1_n_n.lhsIdx i q 0).val = (i 0).val := by
  unfold DotDims.lhsIdx
  rw [dif_neg (show ¬(0 : Fin S1024x1024.rank) ∈ dot_S1024x1024_S1024x2048_S1024x2048_1_0_0_1_n_n.lhsBatch by decide), dif_pos (show (0 : Fin S1024x1024.rank) ∈ dot_S1024x1024_S1024x2048_S1024x2048_1_0_0_1_n_n.lhsNonContracting by decide)]
  rfl
theorem lhs_kv_1 (i : S1024x2048.Idx) (q : dot_S1024x1024_S1024x2048_S1024x2048_1_0_0_1_n_n.contr.Idx) :
    (dot_S1024x1024_S1024x2048_S1024x2048_1_0_0_1_n_n.lhsIdx i q 1).val = (q ⟨0, by decide⟩).val :=
  dot_S1024x1024_S1024x2048_S1024x2048_1_0_0_1_n_n.lhsIdx_val_of_single rfl i q
theorem rhs_kv_0 (i : S1024x2048.Idx) (q : dot_S1024x1024_S1024x2048_S1024x2048_1_0_0_1_n_n.contr.Idx) :
    (dot_S1024x1024_S1024x2048_S1024x2048_1_0_0_1_n_n.rhsIdx i q 0).val = (q ⟨0, by decide⟩).val :=
  dot_S1024x1024_S1024x2048_S1024x2048_1_0_0_1_n_n.rhsIdx_val_of_single rfl i q
theorem rhs_kv_1 (i : S1024x2048.Idx) (q : dot_S1024x1024_S1024x2048_S1024x2048_1_0_0_1_n_n.contr.Idx) :
    (dot_S1024x1024_S1024x2048_S1024x2048_1_0_0_1_n_n.rhsIdx i q 1).val = (i 1).val := by
  unfold DotDims.rhsIdx
  rw [dif_neg (show ¬(1 : Fin S1024x2048.rank) ∈ dot_S1024x1024_S1024x2048_S1024x2048_1_0_0_1_n_n.rhsBatch by decide), dif_pos (show (1 : Fin S1024x2048.rank) ∈ dot_S1024x1024_S1024x2048_S1024x2048_1_0_0_1_n_n.rhsNonContracting by decide)]
  rfl

/-- The block product into the zero accumulator, at (r, e): the row of the left block against the column of the right. -/
theorem matmul_kv_apply (a : FVec Ideal S1024x1024 .bf16) (w : FVec Ideal S1024x2048 .bf16) (r : Fin 1024) (e : Fin 2048) :
    matmul dot_S1024x1024_S1024x2048_S1024x2048_1_0_0_1_n_n none a w (constant (F := Ideal) S1024x2048 .f32 0x00000000#32) (ix2 r e)
      = ∑ k : Fin 1024, a (ix2 r k) * w (ix2 k e) := by
  simp only [matmul]
  rw [Ideal.matmul_constant_zero_apply, ← Equiv.sum_comp (contrEquiv1 dot_S1024x1024_S1024x2048_S1024x2048_1_0_0_1_n_n 1024 rfl rfl).symm]
  refine Finset.sum_congr rfl fun k _ => ?_
  have hk := contrEquiv1_symm_val dot_S1024x1024_S1024x2048_S1024x2048_1_0_0_1_n_n 1024 rfl rfl k
  have el : dot_S1024x1024_S1024x2048_S1024x2048_1_0_0_1_n_n.lhsIdx (ix2 r e) ((contrEquiv1 dot_S1024x1024_S1024x2048_S1024x2048_1_0_0_1_n_n 1024 rfl rfl).symm k) = ix2 r k := funext fun ax => Fin.ext (by
    match ax with
    | ⟨0, _⟩ => exact lhs_kv_0 _ _
    | ⟨1, _⟩ => exact (lhs_kv_1 _ _).trans hk)
  have er : dot_S1024x1024_S1024x2048_S1024x2048_1_0_0_1_n_n.rhsIdx (ix2 r e) ((contrEquiv1 dot_S1024x1024_S1024x2048_S1024x2048_1_0_0_1_n_n 1024 rfl rfl).symm k) = ix2 k e := funext fun ax => Fin.ext (by
    match ax with
    | ⟨0, _⟩ => exact (rhs_kv_0 _ _).trans hk
    | ⟨1, _⟩ => exact rhs_kv_1 _ _)
  rw [el, er]

/-- The fused projection of a block: entry (r, e) is row r of the activation block against column e of the fused weight,
    plus entry e of the fused bias row. -/
theorem pay1_apply (x0 : Vec Ideal S1x1024x1024 .f32) (w : Vec Ideal S1024x2048 .bf16) (b : Vec Ideal S1x2048 .f32) (r : Fin 1024) (e : Fin 2048) :
    k0_pay1 x0 w b (ix2 r e) = (∑ k : Fin 1024, x0 (ix3 (0 : Fin 1) r k) * w (ix2 k e)) + b (ix2 (0 : Fin 1) e) := by
  unfold k0_pay1
  rw [addf_apply, matmul_kv_apply, broadcastTo_1b_ab_apply, shapeCast_self, shapeCast_self]
  refine congrArg (· + b (ix2 (0 : Fin 1) e)) (Finset.sum_congr rfl fun k _ => ?_)
  rw [truncf_apply, shapeCast_1ab_ab_apply]

/-- The keys' payload: columns 0 … 1023 of the block's fused projection. -/
theorem pay2_apply (x0 : Vec Ideal S1x1024x1024 .f32) (w : Vec Ideal S1024x2048 .bf16) (b : Vec Ideal S1x2048 .f32) (u : Fin 1) (r d : Fin 1024)
    (e : Fin 2048) (he : e.val = d.val) :
    k0_pay2 x0 w b (ix3 u r d) = (∑ k : Fin 1024, x0 (ix3 (0 : Fin 1) r k) * w (ix2 k e)) + b (ix2 (0 : Fin 1) e) := by
  unfold k0_pay2
  rw [shapeCast_ab_1ab_apply, truncf_apply, slice2_axis1_apply 0 _ _ r d e (by omega)]
  exact pay1_apply x0 w b r e

/-- The values' payload: columns 1024 … 2047 of the block's fused projection. -/
theorem pay3_apply (x0 : Vec Ideal S1x1024x1024 .f32) (w : Vec Ideal S1024x2048 .bf16) (b : Vec Ideal S1x2048 .f32) (u : Fin 1) (r d : Fin 1024)
    (e : Fin 2048) (he : e.val = 1024 + d.val) :
    k0_pay3 x0 w b (ix3 u r d) = (∑ k : Fin 1024, x0 (ix3 (0 : Fin 1) r k) * w (ix2 k e)) + b (ix2 (0 : Fin 1) e) := by
  unfold k0_pay3
  rw [shapeCast_ab_1ab_apply, truncf_apply, slice2_axis1_apply 1024 _ _ r d e he]
  exact pay1_apply x0 w b r e

/-! ## From blocks to the arrays -/

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the activation window and the two output windows move together, at block (bb, i, 0)
    with bb ≤ 3 and i ≤ 1; the weight and bias windows stay at block (0, 0). -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_4.index t (0 : Fin 3) = win0_3.index t (0 : Fin 3) ∧ win0_4.index t (1 : Fin 3) = win0_3.index t (1 : Fin 3)
    ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 3 ∧ win0_3.index t (1 : Fin 3) ≤ 1 :=
  (by decide +kernel : ∀ t : Fin grid0.N, _)

/-- Every block (bb, i) of the outputs is some point's. -/
theorem idx_onto : ∀ (q0 : Fin 4) (q1 : Fin 2), ∃ t : Fin cfg0.N, win0_3.index t = ![q0.val, q1.val, 0] :=
  (by decide +kernel : ∀ (q0 : Fin 4) (q1 : Fin 2), ∃ t : Fin grid0.N, win0_3.index t = ![q0.val, q1.val, 0])

section Blocks
variable (V : (c : Dev nD) → (b : Ref sig .tc) → Buf (Elt Ideal) ((c : Thread nD τ).loc b))

/-- The weight window's one block is its whole array. -/
theorem wblk_eq (t : Fin cfg0.N) : (iblk0 V c 1 t : Vec Ideal S1024x2048 .bf16) = V c main_v5 := by
  obtain ⟨-, -, -, -, -, -, -, e0, e1, -, -, -, -⟩ := idx_facts t
  funext y
  unfold iblk0
  rw [View.read_apply]
  show V c main_v5 _ = V c main_v5 y
  congr 1
  funext a
  apply Fin.ext
  match a with
  | ⟨0, _⟩ => show win0_1.index t (0 : Fin 2) * 1024 + 1 * (y 0).val = (y 0).val; omega
  | ⟨1, _⟩ => show win0_1.index t (1 : Fin 2) * 2048 + 1 * (y 1).val = (y 1).val; omega

/-- The bias window's one block is its whole array. -/
theorem bblk_eq (t : Fin cfg0.N) : (iblk0 V c 2 t : Vec Ideal S1x2048 .f32) = V c main_v11 := by
  obtain ⟨-, -, -, -, -, -, -, -, -, e0, e1, -, -⟩ := idx_facts t
  funext y
  unfold iblk0
  rw [View.read_apply]
  show V c main_v11 _ = V c main_v11 y
  congr 1
  funext a
  apply Fin.ext
  match a with
  | ⟨0, _⟩ => show win0_2.index t (0 : Fin 2) * 1 + 1 * (y 0).val = (y 0).val; omega
  | ⟨1, _⟩ => show win0_2.index t (1 : Fin 2) * 2048 + 1 * (y 1).val = (y 1).val; omega

/-- Row r of the activation block at a point is row (index₁ · 1024 + r) of batch index₀ of the activations. -/
theorem xblk_apply (t : Fin cfg0.N) (r k : Fin 1024) (i : S4x2048x1024.Idx)
    (h0 : (i 0).val = win0_3.index t (0 : Fin 3)) (h1 : (i 1).val = win0_3.index t (1 : Fin 3) * 1024 + r.val) :
    (iblk0 V c 0 t : Vec Ideal S1x1024x1024 .f32) (ix3 (0 : Fin 1) r k) = (V c main_arg0 : S4x2048x1024.Idx → EReal) (ix3 (i 0) (i 1) k) := by
  obtain ⟨e0, e1, e2, -⟩ := idx_facts t
  unfold iblk0
  rw [View.read_apply]
  show V c main_arg0 _ = V c main_arg0 _
  congr 1
  funext a
  apply Fin.ext
  match a with
  | ⟨0, _⟩ => show win0_0.index t (0 : Fin 3) * 1 + 1 * 0 = (i 0).val; omega
  | ⟨1, _⟩ => show win0_0.index t (1 : Fin 3) * 1024 + 1 * r.val = (i 1).val; omega
  | ⟨2, _⟩ => show win0_0.index t (2 : Fin 3) * 1024 + 1 * k.val = k.val; omega

end Blocks

/-! ## What a point writes back -/

/-- The keys the kernel stores at block index j of a point are the fused projection's key columns of the array index i
    the block index sits at, given that the weight and bias blocks are the fused weight and bias and the activation
    block's row is the activations' row. -/
theorem keys_block (X : S4x2048x1024.Idx → EReal) (Wm : S3072x1024.Idx → EReal) (B : S3072.Idx → EReal)
    (x0 : Vec Ideal S1x1024x1024 .f32) (w : Vec Ideal S1024x2048 .bf16) (b : Vec Ideal S1x2048 .f32)
    (hw : w = wkvOf Wm) (hb : b = bkvOf B) (i : S4x2048x1024.Idx) (j : S1x1024x1024.Idx) (hd : (i 2).val = (j 2).val)
    (hx : ∀ k : Fin 1024, x0 (ix3 (0 : Fin 1) (j 1) k) = X (ix3 (i 0) (i 1) k)) :
    k0_pay2 x0 w b j = Cert.Attn.proj X Wm B (i 0) (i 1) (Cert.Attn.kCol (i 2)) := by
  obtain ⟨u, r, d, rfl⟩ : ∃ (u : Fin 1) (r d : Fin 1024), j = ix3 u r d := ⟨j 0, j 1, j 2, eq_ix3 j⟩
  have hd' : (i 2).val = d.val := hd
  have hx' : ∀ k : Fin 1024, x0 (ix3 (0 : Fin 1) r k) = X (ix3 (i 0) (i 1) k) := hx
  rw [pay2_apply x0 w b u r d ⟨d.val, by have := d.isLt; omega⟩ rfl, hw, hb]
  unfold Cert.Attn.proj
  rw [bkvOf_apply B 0 _ (Cert.Attn.kCol (i 2)) (by show 1024 + (i 2).val = 1024 + d.val; omega)]
  refine congrArg (· + B (ix1 (Cert.Attn.kCol (i 2)))) (Finset.sum_congr rfl fun k _ => ?_)
  rw [hx' k, wkvOf_apply Wm k _ (Cert.Attn.kCol (i 2)) (by show 1024 + (i 2).val = 1024 + d.val; omega)]

/-- The values likewise: the value columns. -/
theorem values_block (X : S4x2048x1024.Idx → EReal) (Wm : S3072x1024.Idx → EReal) (B : S3072.Idx → EReal)
    (x0 : Vec Ideal S1x1024x1024 .f32) (w : Vec Ideal S1024x2048 .bf16) (b : Vec Ideal S1x2048 .f32)
    (hw : w = wkvOf Wm) (hb : b = bkvOf B) (i : S4x2048x1024.Idx) (j : S1x1024x1024.Idx) (hd : (i 2).val = (j 2).val)
    (hx : ∀ k : Fin 1024, x0 (ix3 (0 : Fin 1) (j 1) k) = X (ix3 (i 0) (i 1) k)) :
    k0_pay3 x0 w b j = Cert.Attn.proj X Wm B (i 0) (i 1) (Cert.Attn.vCol (i 2)) := by
  obtain ⟨u, r, d, rfl⟩ : ∃ (u : Fin 1) (r d : Fin 1024), j = ix3 u r d := ⟨j 0, j 1, j 2, eq_ix3 j⟩
  have hd' : (i 2).val = d.val := hd
  have hx' : ∀ k : Fin 1024, x0 (ix3 (0 : Fin 1) r k) = X (ix3 (i 0) (i 1) k) := hx
  rw [pay3_apply x0 w b u r d ⟨1024 + d.val, by have := d.isLt; omega⟩ rfl, hw, hb]
  unfold Cert.Attn.proj
  rw [bkvOf_apply B 0 _ (Cert.Attn.vCol (i 2)) (by show 2048 + (i 2).val = 1024 + (1024 + d.val); omega)]
  refine congrArg (· + B (ix1 (Cert.Attn.vCol (i 2)))) (Finset.sum_congr rfl fun k _ => ?_)
  rw [hx' k, wkvOf_apply Wm k _ (Cert.Attn.vCol (i 2)) (by show 2048 + (i 2).val = 1024 + (1024 + d.val); omega)]

/-- The keys array as one function of the argument arrays. -/
def keysOf (X : S4x2048x1024.Idx → EReal) (Wm : S3072x1024.Idx → EReal) (B : S3072.Idx → EReal) : S4x2048x1024.Idx → EReal :=
  fun i => Cert.Attn.proj X Wm B (i 0) (i 1) (Cert.Attn.kCol (i 2))
/-- The values array as one function of the argument arrays. -/
def valuesOf (X : S4x2048x1024.Idx → EReal) (Wm : S3072x1024.Idx → EReal) (B : S3072.Idx → EReal) : S4x2048x1024.Idx → EReal :=
  fun i => Cert.Attn.proj X Wm B (i 0) (i 1) (Cert.Attn.vCol (i 2))

/-- WHAT POINT t WRITES BACK to the keys array is block t of the keys function. -/
theorem flushed_keys (t : Fin cfg0.N) :
    (dat0 (V1 m ρ) c).flushed 3 t = ((cfg0.win 3).blk t).view.read (Elt Ideal)
      (keysOf (m ((c : Thread nD τ).loc main_arg0)) (m ((c : Thread nD τ).loc main_arg1)) (m ((c : Thread nD τ).loc main_arg2))) := by
  show (cfg0.win 3).cut (grid0.coords t) ((dat0 (V1 m ρ) c).after 3 t) = _
  rw [after0_3]
  unfold out0_3
  rw [View.canon_unit_zero hz3]
  simp only [View.ld_unit_zero (S := S1x1024x1024) hz3, View.ld_unit_zero (S := S1024x2048) hz2, View.ld_unit_zero (S := S1x2048) hz2]
  funext j
  obtain ⟨-, -, -, e3, -⟩ := idx_facts t
  show k0_pay2 (iblk0 (V1 m ρ) c 0 t) (iblk0 (V1 m ρ) c 1 t) (iblk0 (V1 m ρ) c 2 t) j
    = keysOf (m ((c : Thread nD τ).loc main_arg0)) (m ((c : Thread nD τ).loc main_arg1)) (m ((c : Thread nD τ).loc main_arg2))
        (((cfg0.win 3).blk t).view.emb j)
  unfold keysOf
  refine keys_block (m ((c : Thread nD τ).loc main_arg0)) (m ((c : Thread nD τ).loc main_arg1)) (m ((c : Thread nD τ).loc main_arg2))
    (iblk0 (V1 m ρ) c 0 t) (iblk0 (V1 m ρ) c 1 t) (iblk0 (V1 m ρ) c 2 t)
    ((wblk_eq c (V1 m ρ) t).trans (V1_v5 m ρ c)) ((bblk_eq c (V1 m ρ) t).trans (V1_v11 m ρ c))
    (((cfg0.win 3).blk t).view.emb j) j ?_ (fun k => ?_)
  · show win0_3.index t (2 : Fin 3) * 1024 + 1 * (j 2).val = (j 2).val
    omega
  · refine (xblk_apply c (V1 m ρ) t (j 1) k (((cfg0.win 3).blk t).view.emb j) ?_ ?_).trans (congrFun (V1_arg0 m ρ c) _)
    · show win0_3.index t (0 : Fin 3) * 1 + 1 * (j 0).val = win0_3.index t (0 : Fin 3)
      have hj : (j 0).val < 1 := (j 0).isLt
      omega
    · show win0_3.index t (1 : Fin 3) * 1024 + 1 * (j 1).val = win0_3.index t (1 : Fin 3) * 1024 + (j 1).val
      omega

/-- WHAT POINT t WRITES BACK to the values array is block t of the values function. -/
theorem flushed_values (t : Fin cfg0.N) :
    (dat0 (V1 m ρ) c).flushed 4 t = ((cfg0.win 4).blk t).view.read (Elt Ideal)
      (valuesOf (m ((c : Thread nD τ).loc main_arg0)) (m ((c : Thread nD τ).loc main_arg1)) (m ((c : Thread nD τ).loc main_arg2))) := by
  show (cfg0.win 4).cut (grid0.coords t) ((dat0 (V1 m ρ) c).after 4 t) = _
  rw [after0_4]
  unfold out0_4
  rw [View.canon_unit_zero hz3]
  simp only [View.ld_unit_zero (S := S1x1024x1024) hz3, View.ld_unit_zero (S := S1024x2048) hz2, View.ld_unit_zero (S := S1x2048) hz2]
  funext j
  obtain ⟨-, -, -, -, e4, e5, e6, -⟩ := idx_facts t
  show k0_pay3 (iblk0 (V1 m ρ) c 0 t) (iblk0 (V1 m ρ) c 1 t) (iblk0 (V1 m ρ) c 2 t) j
    = valuesOf (m ((c : Thread nD τ).loc main_arg0)) (m ((c : Thread nD τ).loc main_arg1)) (m ((c : Thread nD τ).loc main_arg2))
        (((cfg0.win 4).blk t).view.emb j)
  unfold valuesOf
  refine values_block (m ((c : Thread nD τ).loc main_arg0)) (m ((c : Thread nD τ).loc main_arg1)) (m ((c : Thread nD τ).loc main_arg2))
    (iblk0 (V1 m ρ) c 0 t) (iblk0 (V1 m ρ) c 1 t) (iblk0 (V1 m ρ) c 2 t)
    ((wblk_eq c (V1 m ρ) t).trans (V1_v5 m ρ c)) ((bblk_eq c (V1 m ρ) t).trans (V1_v11 m ρ c))
    (((cfg0.win 4).blk t).view.emb j) j ?_ (fun k => ?_)
  · show win0_4.index t (2 : Fin 3) * 1024 + 1 * (j 2).val = (j 2).val
    omega
  · refine (xblk_apply c (V1 m ρ) t (j 1) k (((cfg0.win 4).blk t).view.emb j) ?_ ?_).trans (congrFun (V1_arg0 m ρ c) _)
    · show win0_4.index t (0 : Fin 3) * 1 + 1 * (j 0).val = win0_3.index t (0 : Fin 3)
      have hj : (j 0).val < 1 := (j 0).isLt
      omega
    · show win0_4.index t (1 : Fin 3) * 1024 + 1 * (j 1).val = win0_3.index t (1 : Fin 3) * 1024 + (j 1).val
      omega

/-! ## The cover: the output blocks tile their arrays -/

/-- An index of the keys array is in point t's block iff each coordinate is in the block's range on its axis. -/
theorem mem_blk_keys (t : Fin cfg0.N) (i : S4x2048x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v12_0).slice (win0_3.rect t)).set ↔ _
  rw [View.set_slice_whole, Rect.mem_set_unit]
  exact Iff.rfl

/-- The same for the values array. -/
theorem mem_blk_values (t : Fin cfg0.N) (i : S4x2048x1024.Idx) :
    i ∈ ((cfg0.win 4).blk t).view.set ↔ ∀ a : Fin 3, win0_4.index t a * S1x1024x1024.size a ≤ (i a).val ∧ (i a).val < win0_4.index t a * S1x1024x1024.size a + S1x1024x1024.size a := by
  show i ∈ ((View.whole main_v12_1).slice (win0_4.rect t)).set ↔ _
  rw [View.set_slice_whole, Rect.mem_set_unit]
  exact Iff.rfl

/-- Row n of batch bb is covered by the point whose block is (bb, n / 1024, 0). -/
theorem cover_keys (i : S4x2048x1024.Idx) : ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk_keys]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

theorem cover_values (i : S4x2048x1024.Idx) : ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  obtain ⟨-, -, -, -, e4, e5, e6, -⟩ := idx_facts t
  refine ⟨t, flush0_4 t, ?_⟩
  rw [mem_blk_values]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1024 ≤ (i 2).val ∧ (i 2).val < win0_4.index t (2 : Fin 3) * 1024 + 1024; omega

/-! ## The two arrays after region 0 -/

theorem final_keys : (dat0 (V1 m ρ) c).arrAt 3 cfg0.N
    = keysOf (m ((c : Thread nD τ).loc main_arg0)) (m ((c : Thread nD τ).loc main_arg1)) (m ((c : Thread nD τ).loc main_arg2)) :=
  (dat0 (V1 m ρ) c).arrAt_eq_of_cover 3 _ (fun t _ => flushed_keys m ρ c t) cover_keys

theorem final_values : (dat0 (V1 m ρ) c).arrAt 4 cfg0.N
    = valuesOf (m ((c : Thread nD τ).loc main_arg0)) (m ((c : Thread nD τ).loc main_arg1)) (m ((c : Thread nD τ).loc main_arg2)) :=
  (dat0 (V1 m ρ) c).arrAt_eq_of_cover 4 _ (fun t _ => flushed_values m ρ c t) cover_values

/-- After region 0 the keys array holds, at [bb, n, d], column 1024 + d of the fused projection of row (bb, n). -/
theorem keys : W2 m ρ c (Proc.devRef .tc main_v12_0)
    = fun i => Cert.Attn.proj (m ((c : Thread nD τ).loc main_arg0)) (m ((c : Thread nD τ).loc main_arg1)) (m ((c : Thread nD τ).loc main_arg2)) (i 0) (i 1) (Cert.Attn.kCol (i 2)) :=
  (W2_arr m ρ c 3).trans (final_keys m ρ c)

/-- After region 0 the values array holds, at [bb, n, d], column 2048 + d of the fused projection of row (bb, n). -/
theorem values : W2 m ρ c (Proc.devRef .tc main_v12_1)
    = fun i => Cert.Attn.proj (m ((c : Thread nD τ).loc main_arg0)) (m ((c : Thread nD τ).loc main_arg1)) (m ((c : Thread nD τ).loc main_arg2)) (i 0) (i 1) (Cert.Attn.vCol (i 2)) :=
  (W2_arr m ρ c 4).trans (final_values m ρ c)

end Cert.Attn.KV

end
-- ==== Proof.LibDotPlain.lean ====
/-
  The plain product of two matrices, read at one entry over the extended reals.

  A plain product of an M × K matrix by a K × N matrix has no batch axis; the left operand is contracted on its
  axis 1 and the right operand on its axis 0.  For the output entry (i, j) and the contraction position k, the left
  operand is read at (i, k) — its index keeps the output's row on axis 0 and takes the contraction position on
  axis 1 — and the right operand is read at (k, j) — its index takes the contraction position on axis 0 and keeps
  the output's column on axis 1.  The contraction has one axis, of extent K, so the sum over its index set is the sum
  over k < K.  Hence entry (i, j) of the product is Σₖ l(i, k) · r(k, j), both for the product a host program
  computes and for the product a kernel accumulates into a zero accumulator.  All of this holds for every M, K, N.
-/
import Idealize.ShloMosaic.PureOps.Ideal.Laws
import Idealize.ShloMosaic.Lib.ValueIdx

noncomputable section

namespace Cert.LibDot

open Idealize.ShloMosaic Idealize.ShloMosaic.ValueIdx

variable (M K N : Nat)

/-- Axis 0 of the left operand's index is the output's row. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- Axis 1 of the left operand's index is the contraction position. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- Axis 0 of the right operand's index is the contraction position. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Axis 1 of the right operand's index is the output's column. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- At output entry (i, j) and contraction position k the left operand is read at (i, k). -/
theorem lhsIdx_plain (i : Fin M) (j : Fin N) (k : Fin K) :
    (DotDims.plain M K N).lhsIdx (ix2 i j) ((contrEquiv1 (DotDims.plain M K N) K rfl rfl).symm k) = ix2 i k :=
  funext fun a => Fin.ext (by
    have hk := contrEquiv1_symm_val (DotDims.plain M K N) K rfl rfl k
    match a with
    | ⟨0, _⟩ => exact lhs_plain_0 M K N _ _
    | ⟨1, _⟩ => exact (lhs_plain_1 M K N _ _).trans hk)

/-- At output entry (i, j) and contraction position k the right operand is read at (k, j). -/
theorem rhsIdx_plain (i : Fin M) (j : Fin N) (k : Fin K) :
    (DotDims.plain M K N).rhsIdx (ix2 i j) ((contrEquiv1 (DotDims.plain M K N) K rfl rfl).symm k) = ix2 k j :=
  funext fun a => Fin.ext (by
    have hk := contrEquiv1_symm_val (DotDims.plain M K N) K rfl rfl k
    match a with
    | ⟨0, _⟩ => exact (rhs_plain_0 M K N _ _).trans hk
    | ⟨1, _⟩ => exact rhs_plain_1 M K N _ _)

/-- The sum over the plain product's contraction index set of the operands' products at entry (i, j) is
    Σₖ l(i, k) · r(k, j). -/
theorem sum_plain (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  refine Finset.sum_congr rfl fun k _ => ?_
  rw [lhsIdx_plain, rhsIdx_plain]

/-- Entry (i, j) of a host program's plain product: Σₖ l(i, k) · r(k, j). -/
theorem dg_plain {φ₁ φ₂ : FTy} (l : FVec Ideal ⟨2, ![M, K]⟩ φ₁) (r : FVec Ideal ⟨2, ![K, N]⟩ φ₂)
    (i : Fin M) (j : Fin N) :
    Host.dotGeneral (F := Ideal) (DotDims.plain M K N) none l r (ix2 i j)
      = ∑ k : Fin K, l (ix2 i k) * r (ix2 k j) :=
  (Ideal.dotGeneral_apply (DotDims.plain M K N) none .single l r _).trans (sum_plain M K N l r i j)

/-- Entry (i, j) of a kernel's plain product into a zero accumulator: Σₖ l(i, k) · r(k, j). -/
theorem mm_plain {φ₁ φ₂ : FTy} (l : FVec Ideal ⟨2, ![M, K]⟩ φ₁) (r : FVec Ideal ⟨2, ![K, N]⟩ φ₂)
    (i : Fin M) (j : Fin N) :
    matmul (DotDims.plain M K N) none l r (constant (F := Ideal) ⟨2, ![M, N]⟩ .f32 0x00000000#32) (ix2 i j)
      = ∑ k : Fin K, l (ix2 i k) * r (ix2 k j) :=
  (Ideal.matmul_constant_zero_apply (DotDims.plain M K N) none l r _).trans (sum_plain M K N l r i j)

end Cert.LibDot

end
-- ==== Proof.LibDotNT.lean ====
/-
  The product of a matrix with the transpose of another, read at one entry over the extended reals.

  For an M × K matrix l and an N × K matrix r, contracted on the last axis of both, entry (i, j) of the product is
  Σₖ l(i, k) · r(j, k): at output entry (i, j) and contraction position k the left operand is read at (i, k) — the
  output's row on axis 0, the contraction position on axis 1 — and the right operand at (j, k) — the output's column
  on ITS axis 0, the contraction position on axis 1. The contraction has one axis of extent K, so the sum over its index
  set is the sum over k < K. This holds for every M, K, N, for a product accumulated into a zero accumulator.
-/
import Idealize.ShloMosaic.PureOps.Ideal.Laws
import Idealize.ShloMosaic.Lib.ValueIdx

noncomputable section

namespace Cert.LibDotNT

open Idealize.ShloMosaic Idealize.ShloMosaic.ValueIdx

variable (M K N : Nat)

/-- Axis 0 of the left operand's index is the output's row. -/
theorem lhs_nt_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- Axis 1 of the left operand's index is the contraction position. -/
theorem lhs_nt_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- Axis 0 of the right operand's index is the output's column. -/
theorem rhs_nt_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- Axis 1 of the right operand's index is the contraction position. -/
theorem rhs_nt_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- At output entry (i, j) and contraction position k the left operand is read at (i, k). -/
theorem lhsIdx_nt (i : Fin M) (j : Fin N) (k : Fin K) :
    (DotDims.transposedRhs M K N).lhsIdx (ix2 i j) ((contrEquiv1 (DotDims.transposedRhs M K N) K rfl rfl).symm k) = ix2 i k :=
  funext fun a => Fin.ext (by
    have hk := contrEquiv1_symm_val (DotDims.transposedRhs M K N) K rfl rfl k
    match a with
    | ⟨0, _⟩ => exact lhs_nt_0 M K N _ _
    | ⟨1, _⟩ => exact (lhs_nt_1 M K N _ _).trans hk)

/-- At output entry (i, j) and contraction position k the right operand is read at (j, k). -/
theorem rhsIdx_nt (i : Fin M) (j : Fin N) (k : Fin K) :
    (DotDims.transposedRhs M K N).rhsIdx (ix2 i j) ((contrEquiv1 (DotDims.transposedRhs M K N) K rfl rfl).symm k) = ix2 j k :=
  funext fun a => Fin.ext (by
    have hk := contrEquiv1_symm_val (DotDims.transposedRhs M K N) K rfl rfl k
    match a with
    | ⟨0, _⟩ => exact rhs_nt_0 M K N _ _
    | ⟨1, _⟩ => exact (rhs_nt_1 M K N _ _).trans hk)

/-- Entry (i, j) of a kernel's product with a transposed right operand, into a zero accumulator: Σₖ l(i, k) · r(j, k). -/
theorem mm_nt {φ₁ φ₂ : FTy} (l : FVec Ideal ⟨2, ![M, K]⟩ φ₁) (r : FVec Ideal ⟨2, ![N, K]⟩ φ₂)
    (i : Fin M) (j : Fin N) :
    matmul (DotDims.transposedRhs M K N) none l r (constant (F := Ideal) ⟨2, ![M, N]⟩ .f32 0x00000000#32) (ix2 i j)
      = ∑ k : Fin K, l (ix2 i k) * r (ix2 j k) := by
  refine (Ideal.matmul_constant_zero_apply (DotDims.transposedRhs M K N) none l r _).trans ?_
  rw [← Equiv.sum_comp (contrEquiv1 (DotDims.transposedRhs M K N) K rfl rfl).symm]
  refine Finset.sum_congr rfl fun k _ => ?_
  rw [lhsIdx_nt, rhsIdx_nt]

end Cert.LibDotNT

end
-- ==== Proof.AttnRow.lean ====
/-
  The attention kernel's body as seven stages, each read at an index.

  On one grid point the body holds a block of 512 rows of x, the query weights wq : [1024, 1024] and bias bq : [1, 1024],
  and the whole keys and values of the batch, k v : [1, 2048, 1024]. Its one stored value is the composition of:
    queries   q[r, e]  = (Σₖ x[0, r, k] · wq[k, e]) + bq[0, e]
    scores    s[r, j]  = Σₑ q[r, e] · k[0, j, e]
    maxima    mx[r]    = max over j of s[r, j], folded from −∞
    exponentials e[r, j] = exp (s[r, j] − mx[r])
    sums      den[r]   = Σⱼ e[r, j]
    weights   w[r, j]  = e[r, j] · (1 / den[r])
    output    o[0, r, d] = Σⱼ w[r, j] · v[0, j, d]
  (changes of float format are the identity on extended reals, and the zero accumulators add nothing).
-/
import proofs.«410920_j11501922419237_3_alg».proof.Proof.Gen.KernelIdeal.Skeleton
import proofs.«410920_j11501922419237_3_alg».proof.Proof.LibDotPlain
import proofs.«410920_j11501922419237_3_alg».proof.Proof.LibDotNT
import Idealize.ShloMosaic.Lib.Pipeline.Value
import Idealize.ShloMosaic.Lib.ValueIdx
import Idealize.ShloMosaic.Lib.ValueLayout
import Idealize.ShloMosaic.PureOps.Ideal.Laws
import Mathlib.Data.Finset.Fold

noncomputable section

namespace Cert.Attn.Row

open Idealize.ShloMosaic Idealize.ShloMosaic.ValueIdx Cert.KernelIdeal Cert.KernelIdeal.Gen
open scoped BigOperators

/-! ## Two layout operations on a column of row statistics -/

/-- A vector [a] cast to a column [a, 1] reads, at (r, u), the vector at r. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- A column [a, 1] broadcast to [a, b] reads, at (r, j), the column's entry of row r. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## The stages -/

/-- The queries of the block. -/
def stQ (x0 : FVec Ideal S1x512x1024 .f32) (x1 : FVec Ideal S1024x1024 .bf16) (x2 : FVec Ideal S1x1024 .f32) : FVec Ideal S512x1024 .bf16 :=
  truncf .bf16 (addf (matmul dot_S512x1024_S1024x1024_S512x1024_1_0_0_1_n_n none
      (truncf .bf16 (shapeCast S512x1024 x0 shapeCasts_S1x512x1024_S512x1024) bitsLt_bf16_f32)
      (shapeCast S1024x1024 x1 shapeCasts_S1024x1024_S1024x1024) (constant (F := Ideal) S512x1024 .f32 0x00000000#32))
    (broadcastTo S512x1024 (shapeCast S1x1024 x2 shapeCasts_S1x1024_S1x1024) broadcasts_S1x1024_S512x1024)) bitsLt_bf16_f32

/-- The scores of the block's rows against every key row. -/
def stS (q : FVec Ideal S512x1024 .bf16) (x3 : FVec Ideal S1x2048x1024 .bf16) : FVec Ideal S512x2048 .f32 :=
  matmul dot_S512x1024_S2048x1024_S512x2048_1_1_0_0_n_n none q
    (shapeCast S2048x1024 x3 shapeCasts_S1x2048x1024_S2048x1024) (constant (F := Ideal) S512x2048 .f32 0x00000000#32)

/-- Each row's maximum. -/
def stMx (s : FVec Ideal S512x2048 .f32) : FVec Ideal S512 .f32 :=
  multiReduction (F := Ideal) .maximumf [1] S512 s 0xFF800000#32 reduces_S512x2048_S512 (.inl rfl) rfl

/-- The shifted exponentials. -/
def stE (s : FVec Ideal S512x2048 .f32) : FVec Ideal S512x2048 .f32 :=
  exp (subf s (broadcastTo S512x2048 (shapeCast S512x1 (stMx s) shapeCasts_S512_S512x1) broadcasts_S512x1_S512x2048))

/-- Each row's sum of exponentials. -/
def stDen (e : FVec Ideal S512x2048 .f32) : FVec Ideal S512 .f32 :=
  multiReduction (F := Ideal) .add [1] S512 e 0x00000000#32 reduces_S512x2048_S512 (.inl rfl) rfl

/-- The weights: each exponential times the reciprocal of its row's sum. -/
def stW (e : FVec Ideal S512x2048 .f32) : FVec Ideal S512x2048 .bf16 :=
  truncf .bf16 (mulf e (broadcastTo S512x2048
    (divf (broadcast S512x1 (Scalar.ofBits (F := Ideal) .f32 0x3F800000#32)) (shapeCast S512x1 (stDen e) shapeCasts_S512_S512x1))
    broadcasts_S512x1_S512x2048)) bitsLt_bf16_f32

/-- The output block. -/
def stO (w : FVec Ideal S512x2048 .bf16) (x4 : FVec Ideal S1x2048x1024 .bf16) : FVec Ideal S1x512x1024 .f32 :=
  shapeCast S1x512x1024 (matmul dot_S512x2048_S2048x1024_S512x1024_1_0_0_1_n_n none w
    (shapeCast S2048x1024 x4 shapeCasts_S1x2048x1024_S2048x1024) (constant (F := Ideal) S512x1024 .f32 0x00000000#32))
    shapeCasts_S512x1024_S1x512x1024

/-- The body's stored value is the composition of the stages. -/
theorem pay_eq (x0 : FVec Ideal S1x512x1024 .f32) (x1 : FVec Ideal S1024x1024 .bf16) (x2 : FVec Ideal S1x1024 .f32)
    (x3 x4 : FVec Ideal S1x2048x1024 .bf16) :
    k1_pay1 (F := Ideal) x0 x1 x2 x3 x4 = stO (stW (stE (stS (stQ x0 x1 x2) x3))) x4 := rfl

/-! ## Each stage at an index -/

theorem stQ_at (x0 : FVec Ideal S1x512x1024 .f32) (x1 : FVec Ideal S1024x1024 .bf16) (x2 : FVec Ideal S1x1024 .f32)
    (r : Fin 512) (e : Fin 1024) :
    stQ x0 x1 x2 (ix2 r e) = (∑ k : Fin 1024, x0 (ix3 (0 : Fin 1) r k) * x1 (ix2 k e)) + x2 (ix2 (0 : Fin 1) e) := by
  unfold stQ
  rw [truncf_apply, addf_apply]
  refine congrArg₂ (· + ·) ?_ ?_
  · refine (Cert.LibDot.mm_plain 512 1024 1024 _ _ r e).trans ?_
    refine Finset.sum_congr rfl fun k _ => ?_
    rw [truncf_apply, shapeCast_1ab_ab_apply, shapeCast_self]
  · rw [broadcastTo_1b_ab_apply, shapeCast_self]

theorem stS_at (q : FVec Ideal S512x1024 .bf16) (x3 : FVec Ideal S1x2048x1024 .bf16) (r : Fin 512) (j : Fin 2048) :
    stS q x3 (ix2 r j) = ∑ e : Fin 1024, q (ix2 r e) * x3 (ix3 (0 : Fin 1) j e) := by
  unfold stS
  refine (Cert.LibDotNT.mm_nt 512 1024 2048 _ _ r j).trans ?_
  refine Finset.sum_congr rfl fun e _ => ?_
  rw [shapeCast_1ab_ab_apply]

/-- The row index with column `k` put back is (r, k). -/
theorem lift_row (h : S512x2048.Reduces [1] S512) (r : Fin 512) (k : Fin (S512x2048.size 1)) :
    h.lift (ix1 r) k = ix2 r (⟨k.val, k.isLt⟩ : Fin 2048) := by
  funext a; apply Fin.ext
  match a with
  | ⟨0, _⟩ => rfl
  | ⟨1, _⟩ => rfl

theorem ofBits_neg_inf : Ideal.ofBits .f32 0xFF800000#32 = (⊥ : EReal) := by simp [Ideal.ofBits, Ideal.ieee]
theorem ofBits_one : Ideal.ofBits .f32 0x3F800000#32 = (1 : EReal) := by
  simp [Ideal.ofBits, Ideal.ieee, -EReal.coe_mul]; norm_num

theorem stMx_at (s : FVec Ideal S512x2048 .f32) (r : Fin 512) :
    stMx s (ix1 r) = (Finset.univ : Finset (Fin 2048)).fold max ⊥ (fun j => s (ix2 r j)) := by
  unfold stMx
  refine (Ideal.multiReduction_maximumf_single s 0xFF800000#32 reduces_S512x2048_S512 (.inl rfl) rfl (ix1 r)).trans ?_
  show (Finset.univ : Finset (Fin 2048)).fold max (Ideal.ofBits .f32 0xFF800000#32) (s ∘ reduces_S512x2048_S512.lift (ix1 r)) = _
  rw [ofBits_neg_inf]
  exact congrArg (fun f => Finset.fold max (⊥ : EReal) f (Finset.univ : Finset (Fin 2048)))
    (funext fun k => congrArg s (lift_row reduces_S512x2048_S512 r k))

theorem stDen_at (e : FVec Ideal S512x2048 .f32) (r : Fin 512) :
    stDen e (ix1 r) = ∑ j : Fin 2048, e (ix2 r j) := by
  unfold stDen
  refine (Ideal.multiReduction_add_single e 0x00000000#32 reduces_S512x2048_S512 (.inl rfl) rfl (ix1 r)).trans ?_
  exact Finset.sum_congr rfl fun k _ => congrArg e (lift_row reduces_S512x2048_S512 r k)

theorem stE_at (s : FVec Ideal S512x2048 .f32) (r : Fin 512) (j : Fin 2048) :
    stE s (ix2 r j) = Ideal.exp (s (ix2 r j) - stMx s (ix1 r)) := by
  unfold stE
  show Ideal.exp ((subf s _) (ix2 r j)) = _
  rw [subf_apply, broadcastTo_a1_ab_apply, shapeCast_a_a1_apply]

theorem stW_at (e : FVec Ideal S512x2048 .f32) (r : Fin 512) (j : Fin 2048) :
    stW e (ix2 r j) = e (ix2 r j) * Ideal.div 1 (stDen e (ix1 r)) := by
  unfold stW
  rw [truncf_apply, mulf_apply, broadcastTo_a1_ab_apply, divf_apply, shapeCast_a_a1_apply, broadcast_apply]
  show e (ix2 r j) * Ideal.div (Ideal.ofBits .f32 0x3F800000#32) _ = _
  rw [ofBits_one]

theorem stO_at (w : FVec Ideal S512x2048 .bf16) (x4 : FVec Ideal S1x2048x1024 .bf16) (u : Fin 1) (r : Fin 512) (d : Fin 1024) :
    stO w x4 (ix3 u r d) = ∑ j : Fin 2048, w (ix2 r j) * x4 (ix3 (0 : Fin 1) j d) := by
  unfold stO
  rw [shapeCast_ab_1ab_apply]
  refine (Cert.LibDot.mm_plain 512 2048 1024 _ _ r d).trans ?_
  refine Finset.sum_congr rfl fun j _ => ?_
  rw [shapeCast_1ab_ab_apply]

end Cert.Attn.Row

end
-- ==== Proof.Region1.lean ====
/-
  Region 1 (the attention call) at one grid point: what the body finds in its windows' blocks, as entries of the
  argument arrays and of the keys and values region 0 left, and hence what the point writes back.

  The grid is (4, 4): point t handles batch bb and the q-th block of 512 query rows. Its windows hold
    x[bb, 512 q + r, k]         (window 0, block (bb, q, 0) of x),
    wq[k, e] = W[e, k]          (window 1, whole: the transposed weights' first 1024 columns),
    bq[0, e] = b[e]             (window 2, whole: the bias' first 1024 entries),
    keys[bb, j, e], values[bb, j, e]   (windows 3 and 4, block (bb, 0, 0): the whole batch),
  and it writes block (bb, q, 0) of the output. With the keys and values equal to the projection's second and third
  column thirds, the stages of the body give exactly the multiplied form of the attention specification at row
  (bb, 512 q + r).
-/
import proofs.«410920_j11501922419237_3_alg».proof.Proof.Gen.KernelIdeal.Frame
import proofs.«410920_j11501922419237_3_alg».proof.Proof.Spec
import proofs.«410920_j11501922419237_3_alg».proof.Proof.AttnRow
import Idealize.ShloMosaic.Lib.StableHlo.Run
import Idealize.ShloMosaic.Lib.Pipeline.Value
import Idealize.ShloMosaic.Lib.ValueLayout

set_option maxRecDepth 16384

noncomputable section

namespace Cert.Attn.R1

open Idealize.ShloMosaic Idealize.ShloMosaic.ValueIdx Idealize.ShloMosaic.TcCoe Idealize.SL.Sem
open Cert.KernelIdeal Cert.KernelIdeal.Gen Idealize.ShloMosaic.StableHlo Cert.Attn Cert.Attn.Row
open scoped BigOperators

variable (m : (ℓ : Loc nD τ sig) → Buf (Elt Ideal) ℓ) (ρ : Dev nD → PrngReg)

/-! ## What region 1 finds in the arrays no region wrote -/

/-- The query weights: the transposed, recast weights' first 1024 columns. -/
theorem wq_term (c : Dev nD) :
    (W2 m ρ c (Proc.devRef .tc main_v2) : S1024x1024.Idx → EReal)
      = extractStridedSlice S1024x1024 ![0, 0] (truncf (F := Ideal) .bf16 (transpose S1024x3072 [1, 0] (m ((c : Thread nD τ).loc main_arg1)) transposes_S3072x1024_S1024x3072_1_0) bitsLt_bf16_f32) slices_S1024x3072_S1024x1024_0_0 := by
  rw [W2_of_ne m ρ c main_v2 (by decide)]
  show StableHlo.after hostOps0 (W0 m ρ c) (Proc.devRef .tc main_v2) = _
  after_results

/-- The query bias: the bias' first 1024 entries as one row. -/
theorem bq_term (c : Dev nD) :
    (W2 m ρ c (Proc.devRef .tc main_v7) : S1x1024.Idx → EReal)
      = shapeCast S1x1024 (extractStridedSlice S1024 ![0] (m ((c : Thread nD τ).loc main_arg2)) slices_S3072_S1024_0) shapeCasts_S1024_S1x1024 := by
  rw [W2_of_ne m ρ c main_v7 (by decide)]
  show StableHlo.after hostOps0 (W0 m ρ c) (Proc.devRef .tc main_v7) = _
  after_results
  rfl

/-- x reaches region 1 as launched. -/
theorem x_term (c : Dev nD) : W2 m ρ c (Proc.devRef .tc main_arg0) = m ((c : Thread nD τ).loc main_arg0) :=
  (((W3_arr m ρ c 0).trans (((dat1 (V2 m ρ) c).arrAt_in 0 rfl _).trans (A_eq1 (V2 m ρ) c 0))).symm).trans (W3_main_arg0 m ρ c)

/-- wq[k, e] = W[e, k]. -/
theorem wq_at (c : Dev nD) (k e : Fin 1024) :
    (W2 m ρ c (Proc.devRef .tc main_v2) : S1024x1024.Idx → EReal) (ix2 k e) = m ((c : Thread nD τ).loc main_arg1) (ix2 (qCol e) k) := by
  rw [wq_term]
  rw [slice2_axis1_apply 0 _ _ k e (qCol e) (by simp [qCol]), truncf_apply, transpose_ix2_apply]

/-- bq[0, e] = b[e]. -/
theorem bq_at (c : Dev nD) (e : Fin 1024) :
    (W2 m ρ c (Proc.devRef .tc main_v7) : S1x1024.Idx → EReal) (ix2 (0 : Fin 1) e) = m ((c : Thread nD τ).loc main_arg2) (ix1 (qCol e)) := by
  rw [bq_term, shapeCast_a_1a_apply]
  exact extractStridedSlice_apply _ _ _ _ (ix1 (qCol e)) (fun ax => by
    match ax with
    | ⟨0, _⟩ => show e.val = 0 + e.val; omega)

/-! ## The body's value over variables -/

/-- With the five blocks holding the entries named in the header, the body's stored value at (u, r, d) is the multiplied form
    of the specification at row (bb, n0 + r), column d. -/
theorem block_value (X : XIdx → EReal) (Wm : WIdx → EReal) (B : BIdx → EReal)
    (Kf Vf : S4x2048x1024.Idx → EReal)
    (hK : ∀ (bb : Fin 4) (j : Fin 2048) (e : Fin 1024), Kf (ix3 bb j e) = proj X Wm B bb j (kCol e))
    (hV : ∀ (bb : Fin 4) (j : Fin 2048) (e : Fin 1024), Vf (ix3 bb j e) = proj X Wm B bb j (vCol e))
    (x0 : FVec Ideal S1x512x1024 .f32) (x1 : FVec Ideal S1024x1024 .bf16) (x2 : FVec Ideal S1x1024 .f32)
    (x3 x4 : FVec Ideal S1x2048x1024 .bf16)
    (bb : Fin 4) (n0 : Nat) (hn : n0 + 512 ≤ 2048)
    (h0 : ∀ (r : Fin 512) (k : Fin 1024), x0 (ix3 (0 : Fin 1) r k) = X (ix3 bb (⟨n0 + r.val, by omega⟩ : Fin 2048) k))
    (h1 : ∀ k e : Fin 1024, x1 (ix2 k e) = Wm (ix2 (qCol e) k))
    (h2 : ∀ e : Fin 1024, x2 (ix2 (0 : Fin 1) e) = B (ix1 (qCol e)))
    (h3 : ∀ (j : Fin 2048) (e : Fin 1024), x3 (ix3 (0 : Fin 1) j e) = Kf (ix3 bb j e))
    (h4 : ∀ (j : Fin 2048) (e : Fin 1024), x4 (ix3 (0 : Fin 1) j e) = Vf (ix3 bb j e))
    (u : Fin 1) (r : Fin 512) (d : Fin 1024) :
    k1_pay1 (F := Ideal) x0 x1 x2 x3 x4 (ix3 u r d) = outMul X Wm B bb (⟨n0 + r.val, by omega⟩ : Fin 2048) d := by
  have hq : ∀ e : Fin 1024, stQ x0 x1 x2 (ix2 r e) = proj X Wm B bb (⟨n0 + r.val, by omega⟩ : Fin 2048) (qCol e) := by
    intro e
    rw [stQ_at, h2]
    unfold proj
    refine congrArg (· + B (ix1 (qCol e))) (Finset.sum_congr rfl fun k _ => ?_)
    rw [h0, h1]
  have hs : ∀ j : Fin 2048, stS (stQ x0 x1 x2) x3 (ix2 r j) = score X Wm B bb (⟨n0 + r.val, by omega⟩ : Fin 2048) j := by
    intro j
    rw [stS_at]
    unfold score
    refine Finset.sum_congr rfl fun e _ => ?_
    rw [hq, h3, hK]
  have hmx : stMx (stS (stQ x0 x1 x2) x3) (ix1 r) = rowMax X Wm B bb (⟨n0 + r.val, by omega⟩ : Fin 2048) := by
    rw [stMx_at]
    unfold rowMax
    exact congrArg (fun f => Finset.fold max (⊥ : EReal) f (Finset.univ : Finset (Fin 2048))) (funext hs)
  have he : ∀ j : Fin 2048, stE (stS (stQ x0 x1 x2) x3) (ix2 r j) = ex X Wm B bb (⟨n0 + r.val, by omega⟩ : Fin 2048) j := by
    intro j
    rw [stE_at, hs, hmx]
    rfl
  have hden : stDen (stE (stS (stQ x0 x1 x2) x3)) (ix1 r) = den X Wm B bb (⟨n0 + r.val, by omega⟩ : Fin 2048) := by
    rw [stDen_at]
    unfold den
    exact Finset.sum_congr rfl fun j _ => he j
  rw [pay_eq, stO_at]
  unfold outMul
  refine Finset.sum_congr rfl fun j _ => ?_
  rw [stW_at, he, hden, h4, hV]

/-! ## The grid's index maps, decided once -/

/-- Over the 16 points: the x window and the output window move together, block (bb, q, 0); the keys and values
    windows stay at block (bb, 0, 0); the weights and bias windows at their one block; bb and q stay below 4. -/
theorem idx_facts : ∀ t : Fin cfg1.N,
    win1_0.index t (0 : Fin 3) = win1_5.index t (0 : Fin 3) ∧ win1_0.index t (1 : Fin 3) = win1_5.index t (1 : Fin 3)
    ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = win1_5.index t (0 : Fin 3) ∧ win1_3.index t (1 : Fin 3) = 0 ∧ win1_3.index t (2 : Fin 3) = 0
    ∧ win1_4.index t (0 : Fin 3) = win1_5.index t (0 : Fin 3) ∧ win1_4.index t (1 : Fin 3) = 0 ∧ win1_4.index t (2 : Fin 3) = 0
    ∧ win1_5.index t (0 : Fin 3) < 4 ∧ win1_5.index t (1 : Fin 3) < 4 ∧ win1_5.index t (2 : Fin 3) = 0 :=
  (by decide +kernel : ∀ t : Fin grid1.N, _)

/-- Every block (bb, q, 0) of the output is some point's. -/
theorem idx_onto : ∀ (bb q : Fin 4), ∃ t : Fin cfg1.N, win1_5.index t = ![bb.val, q.val, 0] :=
  (by decide +kernel : ∀ (bb q : Fin 4), ∃ t : Fin grid1.N, win1_5.index t = ![bb.val, q.val, 0])

theorem hz3 : (![0, 0, 0] : Fin 3 → Nat) = fun _ => 0 := funext fun a => by fin_cases a <;> rfl
theorem hz2 : (![0, 0] : Fin 2 → Nat) = fun _ => 0 := funext fun a => by fin_cases a <;> rfl

section Point
variable (c : Dev nD)

/-- The whole output array, as the attention specification's multiplied form of the three argument arrays. -/
def outArr : S4x2048x1024.Idx → EReal := fun i =>
  outMul (m ((c : Thread nD τ).loc main_arg0)) (m ((c : Thread nD τ).loc main_arg1)) (m ((c : Thread nD τ).loc main_arg2)) (i 0) (i 1) (i 2)

variable (hK : W2 m ρ c (Proc.devRef .tc main_v12_0) = fun i => proj (m ((c : Thread nD τ).loc main_arg0)) (m ((c : Thread nD τ).loc main_arg1)) (m ((c : Thread nD τ).loc main_arg2)) (i 0) (i 1) (kCol (i 2)))
variable (hV : W2 m ρ c (Proc.devRef .tc main_v12_1) = fun i => proj (m ((c : Thread nD τ).loc main_arg0)) (m ((c : Thread nD τ).loc main_arg1)) (m ((c : Thread nD τ).loc main_arg2)) (i 0) (i 1) (vCol (i 2)))

theorem read_x (t : Fin cfg1.N) (bb q : Fin 4) (hb : win1_5.index t (0 : Fin 3) = bb.val) (hq : win1_5.index t (1 : Fin 3) = q.val)
    (r : Fin 512) (k : Fin 1024) :
    (iblk1 (V2 m ρ) c 0 t : S1x512x1024.Idx → EReal) (ix3 (0 : Fin 1) r k)
      = m ((c : Thread nD τ).loc main_arg0) (ix3 bb (⟨q.val * 512 + r.val, by omega⟩ : Fin 2048) k) := by
  obtain ⟨e0, e1, e2, -⟩ := idx_facts t
  show W2 m ρ c (Proc.devRef .tc main_arg0) (((cfg1.win 0).blk t).view.emb (ix3 (0 : Fin 1) r k)) = _
  rw [x_term]
  refine congrArg _ (funext fun a => Fin.ext ?_)
  match a with
  | ⟨0, _⟩ => show win1_0.index t (0 : Fin 3) * 1 + 1 * 0 = bb.val; omega
  | ⟨1, _⟩ => show win1_0.index t (1 : Fin 3) * 512 + 1 * r.val = q.val * 512 + r.val; omega
  | ⟨2, _⟩ => show win1_0.index t (2 : Fin 3) * 1024 + 1 * k.val = k.val; omega

theorem read_wq (t : Fin cfg1.N) (k e : Fin 1024) :
    (iblk1 (V2 m ρ) c 1 t : S1024x1024.Idx → EReal) (ix2 k e) = m ((c : Thread nD τ).loc main_arg1) (ix2 (qCol e) k) := by
  obtain ⟨-, -, -, e3, e4, -⟩ := idx_facts t
  refine Eq.trans ?_ (wq_at m ρ c k e)
  show W2 m ρ c (Proc.devRef .tc main_v2) (((cfg1.win 1).blk t).view.emb (ix2 k e)) = _
  refine congrArg _ (funext fun a => Fin.ext ?_)
  match a with
  | ⟨0, _⟩ => show win1_1.index t (0 : Fin 2) * 1024 + 1 * k.val = k.val; omega
  | ⟨1, _⟩ => show win1_1.index t (1 : Fin 2) * 1024 + 1 * e.val = e.val; omega

theorem read_bq (t : Fin cfg1.N) (e : Fin 1024) :
    (iblk1 (V2 m ρ) c 2 t : S1x1024.Idx → EReal) (ix2 (0 : Fin 1) e) = m ((c : Thread nD τ).loc main_arg2) (ix1 (qCol e)) := by
  obtain ⟨-, -, -, -, -, e5, e6, -⟩ := idx_facts t
  refine Eq.trans ?_ (bq_at m ρ c e)
  show W2 m ρ c (Proc.devRef .tc main_v7) (((cfg1.win 2).blk t).view.emb (ix2 (0 : Fin 1) e)) = _
  refine congrArg _ (funext fun a => Fin.ext ?_)
  match a with
  | ⟨0, _⟩ => show win1_2.index t (0 : Fin 2) * 1 + 1 * 0 = 0; omega
  | ⟨1, _⟩ => show win1_2.index t (1 : Fin 2) * 1024 + 1 * e.val = e.val; omega

theorem read_k (t : Fin cfg1.N) (bb : Fin 4) (hb : win1_5.index t (0 : Fin 3) = bb.val) (j : Fin 2048) (e : Fin 1024) :
    (iblk1 (V2 m ρ) c 3 t : S1x2048x1024.Idx → EReal) (ix3 (0 : Fin 1) j e)
      = (W2 m ρ c (Proc.devRef .tc main_v12_0) : S4x2048x1024.Idx → EReal) (ix3 bb j e) := by
  obtain ⟨-, -, -, -, -, -, -, e7, e8, e9, -⟩ := idx_facts t
  show W2 m ρ c (Proc.devRef .tc main_v12_0) (((cfg1.win 3).blk t).view.emb (ix3 (0 : Fin 1) j e)) = _
  refine congrArg _ (funext fun a => Fin.ext ?_)
  match a with
  | ⟨0, _⟩ => show win1_3.index t (0 : Fin 3) * 1 + 1 * 0 = bb.val; omega
  | ⟨1, _⟩ => show win1_3.index t (1 : Fin 3) * 2048 + 1 * j.val = j.val; omega
  | ⟨2, _⟩ => show win1_3.index t (2 : Fin 3) * 1024 + 1 * e.val = e.val; omega

theorem read_v (t : Fin cfg1.N) (bb : Fin 4) (hb : win1_5.index t (0 : Fin 3) = bb.val) (j : Fin 2048) (e : Fin 1024) :
    (iblk1 (V2 m ρ) c 4 t : S1x2048x1024.Idx → EReal) (ix3 (0 : Fin 1) j e)
      = (W2 m ρ c (Proc.devRef .tc main_v12_1) : S4x2048x1024.Idx → EReal) (ix3 bb j e) := by
  obtain ⟨-, -, -, -, -, -, -, -, -, -, e10, e11, e12, -⟩ := idx_facts t
  show W2 m ρ c (Proc.devRef .tc main_v12_1) (((cfg1.win 4).blk t).view.emb (ix3 (0 : Fin 1) j e)) = _
  refine congrArg _ (funext fun a => Fin.ext ?_)
  match a with
  | ⟨0, _⟩ => show win1_4.index t (0 : Fin 3) * 1 + 1 * 0 = bb.val; omega
  | ⟨1, _⟩ => show win1_4.index t (1 : Fin 3) * 2048 + 1 * j.val = j.val; omega
  | ⟨2, _⟩ => show win1_4.index t (2 : Fin 3) * 1024 + 1 * e.val = e.val; omega

include hK hV in
/-- WHAT POINT t WRITES BACK is block t of the output array `outArr`. -/
theorem flushed_eq (t : Fin cfg1.N) :
    (dat1 (V2 m ρ) c).flushed 5 t = ((cfg1.win 5).blk t).view.read (Elt Ideal) (outArr m c) := by
  show (cfg1.win 5).cut (grid1.coords t) ((dat1 (V2 m ρ) c).after 5 t) = _
  rw [after1_5]
  unfold out1_5
  rw [View.canon_unit_zero hz3]
  simp only [View.ld_unit_zero (S := S1x512x1024) hz3, View.ld_unit_zero (S := S1024x1024) hz2,
    View.ld_unit_zero (S := S1x1024) hz2, View.ld_unit_zero (S := S1x2048x1024) hz3]
  obtain ⟨-, -, -, -, -, -, -, -, -, -, -, -, -, f0, f1, f2⟩ := idx_facts t
  funext y
  obtain ⟨u, r, d, rfl⟩ : ∃ (u : Fin 1) (r : Fin 512) (d : Fin 1024), y = ix3 u r d := ⟨y 0, y 1, y 2, eq_ix3 y⟩
  refine (block_value (m ((c : Thread nD τ).loc main_arg0)) (m ((c : Thread nD τ).loc main_arg1)) (m ((c : Thread nD τ).loc main_arg2))
    (W2 m ρ c (Proc.devRef .tc main_v12_0)) (W2 m ρ c (Proc.devRef .tc main_v12_1))
    (fun bb j e => congrFun hK (ix3 bb j e)) (fun bb j e => congrFun hV (ix3 bb j e))
    (iblk1 (V2 m ρ) c 0 t) (iblk1 (V2 m ρ) c 1 t) (iblk1 (V2 m ρ) c 2 t) (iblk1 (V2 m ρ) c 3 t) (iblk1 (V2 m ρ) c 4 t)
    (⟨win1_5.index t (0 : Fin 3), f0⟩ : Fin 4) (win1_5.index t (1 : Fin 3) * 512) (by omega)
    (fun r k => read_x m ρ c t ⟨win1_5.index t (0 : Fin 3), f0⟩ ⟨win1_5.index t (1 : Fin 3), f1⟩ rfl rfl r k)
    (fun k e => read_wq m ρ c t k e) (fun e => read_bq m ρ c t e)
    (fun j e => read_k m ρ c t ⟨win1_5.index t (0 : Fin 3), f0⟩ rfl j e)
    (fun j e => read_v m ρ c t ⟨win1_5.index t (0 : Fin 3), f0⟩ rfl j e) u r d).trans ?_
  show _ = outArr m c (((cfg1.win 5).blk t).view.emb (ix3 u r d))
  unfold outArr
  have hu : u.val = 0 := by omega
  have hemb : ((cfg1.win 5).blk t).view.emb (ix3 u r d)
      = ix3 (⟨win1_5.index t (0 : Fin 3), f0⟩ : Fin 4) (⟨win1_5.index t (1 : Fin 3) * 512 + r.val, by omega⟩ : Fin 2048) d := by
    funext a; apply Fin.ext
    match a with
    | ⟨0, _⟩ => show win1_5.index t (0 : Fin 3) * 1 + 1 * u.val = win1_5.index t (0 : Fin 3); omega
    | ⟨1, _⟩ => show win1_5.index t (1 : Fin 3) * 512 + 1 * r.val = win1_5.index t (1 : Fin 3) * 512 + r.val; omega
    | ⟨2, _⟩ => show win1_5.index t (2 : Fin 3) * 1024 + 1 * d.val = d.val; omega
  rw [hemb]

/-- An index of the output array is in point t's block iff each coordinate is in the block's range on its axis. -/
theorem mem_blk (t : Fin cfg1.N) (i : S4x2048x1024.Idx) :
    i ∈ ((cfg1.win 5).blk t).view.set ↔ ∀ a : Fin 3, win1_5.index t a * S1x512x1024.size a ≤ (i a).val
      ∧ (i a).val < win1_5.index t a * S1x512x1024.size a + S1x512x1024.size a := by
  show i ∈ ((View.whole main_v13).slice (win1_5.rect t)).set ↔ _
  rw [View.set_slice_whole, Rect.mem_set_unit]
  exact Iff.rfl

/-- Every index of the output array lies in some point's block: row n of batch bb in the block of point (bb, n / 512). -/
theorem covered (i : S4x2048x1024.Idx) :
    ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win1_5.index t (0 : Fin 3) = (i 0).val := congrFun ht 0
  have q1 : win1_5.index t (1 : Fin 3) = (i 1).val / 512 := congrFun ht 1
  have q2 : win1_5.index t (2 : Fin 3) = 0 := congrFun ht 2
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 1024 ≤ (i 2).val ∧ (i 2).val < win1_5.index t (2 : Fin 3) * 1024 + 1024; omega

include hK hV in
/-- THE OUTPUT ARRAY after region 1 is `outArr`. -/
theorem final : (dat1 (V2 m ρ) c).arrAt 5 cfg1.N = outArr m c :=
  (dat1 (V2 m ρ) c).arrAt_eq_of_cover 5 (outArr m c) (fun t _ => flushed_eq m ρ c hK hV t) covered

include hK hV in
/-- So the last boundary holds `outArr` at the result array. -/
theorem result : W3 m ρ c (Proc.devRef .tc main_v13) = outArr m c :=
  (W3_arr m ρ c 5).trans (final m ρ c hK hV)

end Point

end Cert.Attn.R1

end
-- ==== Proof.lean ====
/-
  Single-head attention over a fused q/k/v projection: the kernel program against the plain reference, over the
  extended reals.

  Both programs compute, for x : [4, 2048, 1024], W : [3072, 1024], b : [3072], the projection
  proj = x · Wᵀ + b, split its 3072 columns into queries, keys and values, take the scores q · kᵀ of every query row
  against the key rows of its batch, a softmax along each score row (shifted by the row's maximum), and the product
  of the softmax weights with the values. The kernel program does it in two launches — keys and values first, blocked
  over rows, then per block of 512 query rows the queries, the scores against all 2048 key rows, the softmax and the
  output block — in bf16 operands with f32 accumulation, which at the ideal instance are the same extended reals. The
  one algebraic difference: the kernel multiplies each exponential by the reciprocal 1 / Σ of its row's sum, the
  reference divides by the sum. For finite inputs every score is a real number, the row maximum is a real number, each
  shifted exponential is a positive real and the row sum is positive, so e · (1 / Σ) = e / Σ; that is where the
  precondition is used.

  The modules: Spec (the specification and the law), RefValue (the reference's result is the divided form), KeysValues
  (what the first launch leaves), AttnRow and Region1 (what the second launch leaves: the multiplied form), KernelRun
  (the kernel program's run with its result array named), Finite (real entries from the precondition).
-/
import proofs.«410920_j11501922419237_3_alg».proof.Defs
import proofs.«410920_j11501922419237_3_alg».proof.Proof.Gen.Kernel
import proofs.«410920_j11501922419237_3_alg».proof.Proof.Gen.Kernel.Skeleton
import proofs.«410920_j11501922419237_3_alg».proof.Proof.Gen.Kernel.Launch
import proofs.«410920_j11501922419237_3_alg».proof.Proof.Gen.Kernel.Points
import proofs.«410920_j11501922419237_3_alg».proof.Proof.Gen.Kernel.Frame
import proofs.«410920_j11501922419237_3_alg».proof.Proof.Gen.KernelIdeal
import proofs.«410920_j11501922419237_3_alg».proof.Proof.Gen.KernelIdeal.Skeleton
import proofs.«410920_j11501922419237_3_alg».proof.Proof.Gen.KernelIdeal.Launch
import proofs.«410920_j11501922419237_3_alg».proof.Proof.Gen.KernelIdeal.Points
import proofs.«410920_j11501922419237_3_alg».proof.Proof.Gen.KernelIdeal.Frame
import proofs.«410920_j11501922419237_3_alg».proof.Proof.Gen.ReferenceIdeal
import proofs.«410920_j11501922419237_3_alg».proof.Proof.Gen.Pre_finite_inputs
import proofs.«410920_j11501922419237_3_alg».proof.Proof.Gen.ReferenceIdeal.Run
import proofs.«410920_j11501922419237_3_alg».proof.Proof.Gen.ReferenceIdeal.Read
import proofs.«410920_j11501922419237_3_alg».proof.Proof.Spec
import proofs.«410920_j11501922419237_3_alg».proof.Proof.Finite
import proofs.«410920_j11501922419237_3_alg».proof.Proof.RefValue
import proofs.«410920_j11501922419237_3_alg».proof.Proof.KeysValues
import proofs.«410920_j11501922419237_3_alg».proof.Proof.KernelRun
import proofs.«410920_j11501922419237_3_alg».proof.Proof.Region1
import Idealize.ShloMosaic.Adequacy
import Idealize.ShloMosaic.Init

noncomputable section

namespace Cert.Proof

open Idealize.ShloMosaic Idealize.SL.Sem

/-- The three programs run, fault-free, and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the attention output of the three arguments: the kernel program with each exponential times
    the reciprocal of its row's sum, the reference with each exponential over the sum; for the finite inputs the
    precondition grants these are one array. -/
theorem algebraic : Cert.algebraic_KernelIdeal_ReferenceIdeal := by
  intro m ρ m' ρ' hpre hagree
  refine ⟨fun c => Cert.Attn.R1.outArr m c, ?_, ?_⟩
  · exact (θ_run Cert.KernelIdeal.defs _ _).mono
      (fun r h c => ⟨(h c).1.trans (Cert.Attn.R1.result m ρ c (Cert.Attn.KV.keys m ρ c) (Cert.Attn.KV.values m ρ c)), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.Attn.Ref.result m' c, (hagree c).1, (hagree c).2.1, (hagree c).2.2]
    obtain ⟨hx, hW, hb⟩ := Cert.Attn.Finite.real_of_pre _ _ _ (hpre c)
    funext i
    exact (Cert.Attn.outMul_eq_outDiv _ _ _ hx hW hb (i 0) (i 1) (i 2)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
